-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192x8192 1) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192x8192 : Shape := ⟨2, ![8192, 8192]⟩
abbrev S8192x1 : Shape := ⟨2, ![8192, 1]⟩
abbrev S1024x256 : Shape := ⟨2, ![1024, 256]⟩
abbrev S1024x1024 : Shape := ⟨2, ![1024, 1024]⟩
abbrev S1024x1 : Shape := ⟨2, ![1024, 1]⟩
abbrev S1024 : Shape := ⟨1, ![1024]⟩
abbrev S256x1024 : Shape := ⟨2, ![256, 1024]⟩
abbrev S1x1024 : Shape := ⟨2, ![1, 1024]⟩
abbrev S8192 : Shape := ⟨1, ![8192]⟩
abbrev S4096x256 : Shape := ⟨2, ![4096, 256]⟩
abbrev S_ : Shape := ⟨0, ![]⟩
abbrev S4096 : Shape := ⟨1, ![4096]⟩

abbrev nBuf : Space → Nat
  | .hbm => 44
  | .vmem => 9
  | .smem => 0
  | _ => 0

abbrev bufTy : (tb : Table) → Fin (tcTables nBuf tb) → BufTy
  | .hbm, ⟨0, _⟩ => ⟨S8192x256, .f32⟩
  | .hbm, ⟨1, _⟩ => ⟨S8192x8192, .i1⟩
  | .hbm, ⟨2, _⟩ => ⟨S8192x8192, .i32⟩
  | .hbm, ⟨3, _⟩ => ⟨S8192x1, .f32⟩
  | .hbm, ⟨4, _⟩ => ⟨S8192, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S_, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S4096, .f32⟩
  | .hbm, ⟨23, _⟩ => ⟨S4096, .i1⟩
  | .hbm, ⟨24, _⟩ => ⟨S4096, .i1⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S_, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1024, .i32⟩
  | .local _ .vmem, ⟨5, _⟩ => ⟨S1024x1024, .i32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_19 : BitVec 32 := 0#32
  let v41 : BitVec 1 := Scalar.cmpi .ne v40 c0_i32_19
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  natLt_1_32 : 1 < 32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  transposes_S1024x256_p1_0_S256x1024 : S1024x256.Transposes [1, 0] S256x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S8192x1_S8192 : S8192x1.ShapeCasts S8192
  slices_S8192x256_S4096x256_0_0 : S8192x256.Slices ![0, 0] S4096x256
  slices_S8192x256_S4096x256_4096_0 : S8192x256.Slices ![4096, 0] S4096x256
  reducesTo_S4096x256_S4096_d1 : S4096x256.ReducesTo [1] S4096
  h_S_ : 0 < S_.numel
  bcast_S_S4096 : S_.BroadcastsInDim S4096 (![] : Fin 0 → Fin S4096.rank)
  slices_S8192_S4096_0 : S8192.Slices ![0] S4096
  slices_S8192_S4096_4096 : S8192.Slices ![4096] S4096
  reducesTo_S4096_S_d0 : S4096.ReducesTo [0] S_
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .i32 = 32 ∨ (Rect.block (s := S8192x8192) S1024x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S256x8192 : Shape := ⟨2, ![256, 8192]⟩
abbrev S4096 : Shape := ⟨1, ![4096]⟩
abbrev S4096x1 : Shape := ⟨2, ![4096, 1]⟩
abbrev S4096x2 : Shape := ⟨2, ![4096, 2]⟩

abbrev nBuf : Space → Nat
  | .hbm => 84
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .i1⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S256x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192, .f32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S_, .i32⟩
  | .hbm, ⟨41, _⟩ => ⟨S4096, .i32⟩
  | .hbm, ⟨42, _⟩ => ⟨S4096, .i1⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S4096, .i32⟩
  | .hbm, ⟨47, _⟩ => ⟨S_, .i32⟩
  | .hbm, ⟨48, _⟩ => ⟨S4096, .i32⟩
  | .hbm, ⟨49, _⟩ => ⟨S4096, .i1⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S4096, .i32⟩
  | .hbm, ⟨54, _⟩ => ⟨S4096x1, .i32⟩
  | .hbm, ⟨55, _⟩ => ⟨S4096x1, .i32⟩
  | .hbm, ⟨56, _⟩ => ⟨S4096x2, .i32⟩
  | .hbm, ⟨57, _⟩ => ⟨S4096, .f32⟩
  | .hbm, ⟨58, _⟩ => ⟨S4096, .f32⟩
  | .hbm, ⟨59, _⟩ => ⟨S4096, .f32⟩
  | .hbm, ⟨60, _⟩ => ⟨S4096, .f32⟩
  | .hbm, ⟨61, _⟩ => ⟨S4096, .f32⟩
  | .hbm, ⟨62, _⟩ => ⟨S4096, .f32⟩
  | .hbm, ⟨63, _⟩ => ⟨S4096, .i1⟩
  | .hbm, ⟨64, _⟩ => ⟨S4096, .i1⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S4096, .f32⟩
  | .hbm, ⟨69, _⟩ => ⟨S_, .f32⟩
  | .hbm, ⟨70, _⟩ => ⟨S_, .f32⟩
  | .hbm, ⟨71, _⟩ => ⟨S4096, .f32⟩
  | .hbm, ⟨72, _⟩ => ⟨S4096, .f32⟩
  | .hbm, ⟨73, _⟩ => ⟨S4096, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_call0_v0 : Ref sig .tc := ⟨.hbm, 31, rfl⟩
abbrev main_call0_v1 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_c : Ref sig .tc := ⟨.hbm, 37, rfl⟩
abbrev main_v25 : Ref sig .tc := ⟨.hbm, 38, rfl⟩
abbrev main_v26 : Ref sig .tc := ⟨.hbm, 39, rfl⟩
abbrev main_c_7 : Ref sig .tc := ⟨.hbm, 40, rfl⟩
abbrev main_v27 : Ref sig .tc := ⟨.hbm, 41, rfl⟩
abbrev main_v28 : Ref sig .tc := ⟨.hbm, 42, rfl⟩
abbrev main_c_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_9 : Ref sig .tc := ⟨.hbm, 47, rfl⟩
abbrev main_v32 : Ref sig .tc := ⟨.hbm, 48, rfl⟩
abbrev main_v33 : Ref sig .tc := ⟨.hbm, 49, rfl⟩
abbrev main_c_10 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_11 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_call1_v0 : Ref sig .tc := ⟨.hbm, 70, rfl⟩
abbrev main_call1_v1 : Ref sig .tc := ⟨.hbm, 71, rfl⟩
abbrev main_v51 : Ref sig .tc := ⟨.hbm, 72, rfl⟩
abbrev main_v52 : Ref sig .tc := ⟨.hbm, 73, rfl⟩
abbrev main_c_13 : Ref sig .tc := ⟨.hbm, 74, rfl⟩
abbrev main_v53 : Ref sig .tc := ⟨.hbm, 75, rfl⟩
abbrev main_c_14 : Ref sig .tc := ⟨.hbm, 76, rfl⟩
abbrev main_v54 : Ref sig .tc := ⟨.hbm, 77, rfl⟩
abbrev main_v55 : Ref sig .tc := ⟨.hbm, 78, rfl⟩
abbrev main_cst_15 : Ref sig .tc := ⟨.hbm, 79, rfl⟩
abbrev main_v56 : Ref sig .tc := ⟨.hbm, 80, rfl⟩
abbrev main_v57 : Ref sig .tc := ⟨.hbm, 81, rfl⟩
abbrev main_cst_16 : Ref sig .tc := ⟨.hbm, 82, rfl⟩
abbrev main_v58 : Ref sig .tc := ⟨.hbm, 83, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  slices_S8192_S4096_0 : S8192.Slices ![0] S4096
  slices_S8192_S4096_4096 : S8192.Slices ![4096] S4096
  natLt_1_32 : 1 < 32
  reducesTo_S4096_S_d0 : S4096.ReducesTo [0] S_
  dot_S8192x256_S256x8192_S8192x8192_1_0_0_1_n_n_wf : DotDims.WF S8192x256 S256x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.KBodyBits.lean ====
/-
  The kernel's body, point by point.

  The kernel walks an 8 by 8 grid of tiles of the 8192 by 8192 distance matrix, row tile by row tile. At point
  `t` (row tile `t / 8`, column tile `t % 8`) it holds the row block and the column block of the table (1024 rows
  each) and the mask's tile, and adds the tile's masked partial row sums to an accumulator column of 1024 entries,
  which it resets at the first column tile of a row tile and writes out at the last. This file runs the body in its
  three cases (reset, carry, write out), names what the accumulator holds after each point (`accAt`), and states
  the run at every point against the pipeline's proof data (`body_obligation`).
-/
import proofs.«151518_j26792005992920_1_alg».proof.Proof.Gen.Kernel.Launch
import proofs.«151518_j26792005992920_1_alg».proof.Proof.Gen.Kernel.Skeleton
import proofs.«151518_j26792005992920_1_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branches of the body, decided over the grid

The grid is 8 row tiles by 8 column tiles, walked row tile by row tile: point `t` is row tile `t / 8`, column tile
`t % 8`. The accumulator is reset at the first column tile of a row tile and written out at the last. -/

/-- The reset's condition (column tile 0) as the body computes it from the grid coordinates. -/
abbrev cond1 (i : grid0.Coords) : Prop := (Scalar.cmpi .ne (Scalar.extui (Scalar.cmpi .eq (BitVec.ofNat 32 (i 1).val) 0#32)) 0#32) = 1#1
theorem hcond1 : ∀ t : Fin cfg0.N, cond1 (grid0.coords t) ↔ t.val % 8 = 0 :=
  (by decide +kernel : ∀ t : Fin grid0.N, cond1 (grid0.coords t) ↔ t.val % 8 = 0)
/-- The write-out's condition (column tile 7). -/
abbrev cond2 (i : grid0.Coords) : Prop := k0_cond2 i = 1#1
theorem hcond2 : ∀ t : Fin cfg0.N, cond2 (grid0.coords t) ↔ t.val % 8 = 7 :=
  (by decide +kernel : ∀ t : Fin grid0.N, cond2 (grid0.coords t) ↔ t.val % 8 = 7)

/-- One point's update of the accumulator `s`: the tile's masked partial row sums, from the row block `x`, the column
    block `y` and the mask tile `msk`, added to it. -/
def step (x y : Vec F S1024x256 .f32) (msk : Vec F S1024x1024 .i32) (s : Vec F S1024x1 .f32) : Vec F S1024x1 .f32 :=
  k0_pay1 (k0_pay3 x y msk s)

theorem hz2 : (![0, 0] : Fin 2 → Nat) = fun _ => 0 := by funext a; fin_cases a <;> rfl

/-- A whole-block store, last, leaves its payload. -/
theorem read_store_last {S : Shape} {e : EltTy} (hS : S.rank = 2) {off : Fin S.rank → Nat} (hoff : off = fun _ => 0) (mr : Memref sig .tc .vmem S e) (f : mr.view.ty.Contents (Elt F))
    (inb : ∀ a, off a + S.size a ≤ S.size a) (w : S.Idx → Elt F e) (L : List (View.Piece (Elt F) S e)) :
    mr.view.read (Elt F) (mr.view.writes (Elt F) f (⟨Rect.unit off S.size inb, w⟩ :: L)) = w := by
  rw [View.read_writes_eq_canon _ _ _ (fun y => ⟨_, List.mem_cons_self, View.mem_set_unit_zero hoff inb y⟩), View.canon_cons_unit_zero hoff]

set_option maxHeartbeats 1000000 in
/-- A point that is neither the first nor the last column tile of its row tile: the accumulator `s` is updated, the
    output's buffer is not touched. -/
theorem run_B (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1024x1 .f32) (harg6 : arg6.IsWhole)
    (hc1 : ¬cond1 i) (hc2 : ¬cond2 i)
    (x y : Vec F S1024x256 .f32) (msk : Vec F S1024x1024 .i32) (o s : Vec F S1024x1 .f32) (E : Set ℕ) (K : PUnit → sProp 𝕄) :
    iprop(owns (c : Thread nD τ) arg2 fullShare x ∗ owns (c : Thread nD τ) arg3 fullShare y ∗ owns (c : Thread nD τ) arg4 fullShare msk
        ∗ owns (c : Thread nD τ) arg5 fullShare o ∗ owns (c : Thread nD τ) arg6 fullShare s
        ∗ (iprop(owns (c : Thread nD τ) arg2 fullShare x ∗ owns (c : Thread nD τ) arg3 fullShare y ∗ owns (c : Thread nD τ) arg4 fullShare msk
            ∗ owns (c : Thread nD τ) arg5 fullShare o ∗ owns (c : Thread nD τ) arg6 fullShare (step x y msk s)) -∗ K ⟨⟩))
      ⊢ wp frame (wpE (defs₀ (F := F)) Variants.none c none) E (cc0__rowsum_kernel i arg2 harg2 arg3 harg3 arg4 harg4 arg5 harg5 arg6 harg6) K := by
  simp only [cc0__rowsum_kernel_eq_skeleton]; unfold cc0__rowsum_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc1 | exact hc2)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  iexists _; isplitr; swap; · iexact HS
  ipureintro
  rw [read_store_last (by rfl) hz2]
  simp only [View.readAt_eq_ld, harg2.read_unread, harg3.read_unread, harg4.read_unread, harg6.read_unread,
    View.ld_unit_zero (S := S1024x256) hz2, View.ld_unit_zero (S := S1024x1024) hz2, View.ld_unit_zero (S := S1024x1) hz2]
  rfl

set_option maxHeartbeats 1000000 in
/-- The first column tile of a row tile: the accumulator is reset to zero, then updated. -/
theorem run_A (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1024x1 .f32) (harg6 : arg6.IsWhole)
    (hc1 : cond1 i) (hc2 : ¬cond2 i)
    (x y : Vec F S1024x256 .f32) (msk : Vec F S1024x1024 .i32) (o : Vec F S1024x1 .f32) (E : Set ℕ) (K : PUnit → sProp 𝕄) :
    iprop(owns (c : Thread nD τ) arg2 fullShare x ∗ owns (c : Thread nD τ) arg3 fullShare y ∗ owns (c : Thread nD τ) arg4 fullShare msk
        ∗ owns (c : Thread nD τ) arg5 fullShare o ∗ (∃ d, owns (c : Thread nD τ) arg6 fullShare d)
        ∗ (iprop(owns (c : Thread nD τ) arg2 fullShare x ∗ owns (c : Thread nD τ) arg3 fullShare y ∗ owns (c : Thread nD τ) arg4 fullShare msk
            ∗ owns (c : Thread nD τ) arg5 fullShare o ∗ owns (c : Thread nD τ) arg6 fullShare (step x y msk k0_pay2)) -∗ K ⟨⟩))
      ⊢ wp frame (wpE (defs₀ (F := F)) Variants.none c none) E (cc0__rowsum_kernel i arg2 harg2 arg3 harg3 arg4 harg4 arg5 harg5 arg6 harg6) K := by
  simp only [cc0__rowsum_kernel_eq_skeleton]; unfold cc0__rowsum_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%ds, %fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc1 | exact hc2)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  iexists _; isplitr; swap; · iexact HS
  ipureintro
  sl_unfold_words
  rw [read_store_last (by rfl) hz2]
  simp only [View.readAt_eq_ld, harg2.read_unread, harg3.read_unread, harg4.read_unread, harg6.read_unread,
    View.ld_unit_zero (S := S1024x256) hz2, View.ld_unit_zero (S := S1024x1024) hz2, View.ld_unit_zero (S := S1024x1) hz2,
    View.readCov_unit_zero (S := S1024x1) _ hz2]
  rfl

set_option maxHeartbeats 1000000 in
/-- The last column tile of a row tile: the accumulator is updated and copied into the output's buffer. -/
theorem run_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1024x1 .f32) (harg6 : arg6.IsWhole)
    (hc1 : ¬cond1 i) (hc2 : cond2 i)
    (x y : Vec F S1024x256 .f32) (msk : Vec F S1024x1024 .i32) (s : Vec F S1024x1 .f32) (E : Set ℕ) (K : PUnit → sProp 𝕄) :
    iprop(owns (c : Thread nD τ) arg2 fullShare x ∗ owns (c : Thread nD τ) arg3 fullShare y ∗ owns (c : Thread nD τ) arg4 fullShare msk
        ∗ (∃ d, owns (c : Thread nD τ) arg5 fullShare d) ∗ owns (c : Thread nD τ) arg6 fullShare s
        ∗ (iprop(owns (c : Thread nD τ) arg2 fullShare x ∗ owns (c : Thread nD τ) arg3 fullShare y ∗ owns (c : Thread nD τ) arg4 fullShare msk
            ∗ owns (c : Thread nD τ) arg5 fullShare (step x y msk s) ∗ owns (c : Thread nD τ) arg6 fullShare (step x y msk s)) -∗ K ⟨⟩))
      ⊢ wp frame (wpE (defs₀ (F := F)) Variants.none c none) E (cc0__rowsum_kernel i arg2 harg2 arg3 harg3 arg4 harg4 arg5 harg5 arg6 harg6) K := by
  simp only [cc0__rowsum_kernel_eq_skeleton]; unfold cc0__rowsum_kernel_skel
  simp only [k0_part1_eq_skeleton]; unfold k0_part1_skel
  unfold owns
  iintro ⟨⟨%f0, %hf0, H0⟩, ⟨%f1, %hf1, H1⟩, ⟨%f2, %hf2, H2⟩, ⟨%d3, %f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc1 | exact hc2)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]
  · iexists _; isplitr; swap; · iexact H3
    ipureintro
    sl_unfold_words
    rw [read_store_last (by rfl) hz2]
    simp only [View.readAt_eq_ld, harg2.read_unread, harg3.read_unread, harg4.read_unread, harg6.read_unread,
      View.ld_unit_zero (S := S1024x256) hz2, View.ld_unit_zero (S := S1024x1024) hz2, View.ld_unit_zero (S := S1024x1) hz2,
      View.readCov_unit_zero (S := S1024x1) _ hz2]
    rfl
  iexists _; isplitr; swap; · iexact HS
  ipureintro
  sl_unfold_words
  rw [read_store_last (by rfl) hz2]
  simp only [View.readAt_eq_ld, harg2.read_unread, harg3.read_unread, harg4.read_unread, harg6.read_unread,
    View.ld_unit_zero (S := S1024x256) hz2, View.ld_unit_zero (S := S1024x1024) hz2, View.ld_unit_zero (S := S1024x1) hz2,
    View.readCov_unit_zero (S := S1024x1) _ hz2]
  rfl

variable (m : (ℓ : Loc nD τ sig) → Buf (Elt F) ℓ) (ρ : Dev nD → PrngReg)

/-! ## The arrays the region finds, and their blocks -/

/-- Core `c`'s buffers as launched, and when the region is entered: the mask has been widened to 32-bit words. -/
abbrev V0 (c : Dev nD) : Valuation τ sig (Elt F) := fun b => m (c, b)
abbrev V1 (c : Dev nD) : Valuation τ sig (Elt F) := StableHlo.after hostOps0 (V0 m c)
abbrev V (c : Dev nD) (b : Ref sig .tc) : Buf (Elt F) ((c : Thread nD τ).loc b) := V1 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row block, the column block and the mask tile of point `t`, at their literal types. -/
abbrev xblk (c : Dev nD) (t : Fin cfg0.N) : Vec F S1024x256 .f32 := iblk m c 0 t
abbrev yblk (c : Dev nD) (t : Fin cfg0.N) : Vec F S1024x256 .f32 := iblk m c 1 t
abbrev mblk (c : Dev nD) (t : Fin cfg0.N) : Vec F S1024x1024 .i32 := iblk m c 2 t

/-- THE ACCUMULATOR after point `n`: reset at the first column tile of a row tile, else carried from the point before. -/
def accAt (c : Dev nD) : (n : ℕ) → n < cfg0.N → Vec F S1024x1 .f32
  | 0, h => step (xblk m c ⟨0, h⟩) (yblk m c ⟨0, h⟩) (mblk m c ⟨0, h⟩) k0_pay2
  | n + 1, h =>
    if (n + 1) % 8 = 0 then step (xblk m c ⟨n + 1, h⟩) (yblk m c ⟨n + 1, h⟩) (mblk m c ⟨n + 1, h⟩) k0_pay2
    else step (xblk m c ⟨n + 1, h⟩) (yblk m c ⟨n + 1, h⟩) (mblk m c ⟨n + 1, h⟩) (accAt c n (Nat.lt_of_succ_lt h))

theorem accAt_reset (c : Dev nD) (t : Fin cfg0.N) (h : t.val % 8 = 0) :
    accAt m c t.val t.isLt = step (xblk m c t) (yblk m c t) (mblk m c t) k0_pay2 := by
  obtain ⟨n, hn⟩ := t
  cases n with
  | zero => rfl
  | succ n => exact if_pos h

theorem accAt_carry (c : Dev nD) (t : Fin cfg0.N) (h : ¬t.val % 8 = 0) :
    accAt m c t.val t.isLt = step (xblk m c t) (yblk m c t) (mblk m c t) (accAt m c (t.val - 1) (Nat.lt_of_le_of_lt (Nat.sub_le _ _) t.isLt)) := by
  obtain ⟨n, hn⟩ := t
  cases n with
  | zero => exact absurd (Nat.zero_mod _) h
  | succ n => exact if_neg h

/-- The scratch the kernel carries between points, as a memref. -/
abbrev scM : Memref sig .tc .vmem S1024x1 .f32 := Memref.whole cc0_scratch0

/-- The region invariant before position `n`: before the first point the scratch at anything; afterwards at the
    accumulator the point before left. -/
def PhiS (c : Dev nD) : (n : ℕ) → n ≤ cfg0.N → sProp 𝕄
  | 0, _ => iprop(∃ d, owns (c : Thread nD τ) scM fullShare d)
  | n + 1, hn => owns (c : Thread nD τ) scM fullShare (accAt m c n hn)

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The pipeline's proof data -/

/-- The table is handed to the kernel twice, as the row window and as the column window: each holds half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accAt m c t.val t.isLt
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = accAt m c t.val t.isLt := by dsimp only [dats]

theorem PhiS_castSucc (c : Dev nD) (t : Fin cfg0.N) :
    (dats m 0 c).Φ t.castSucc = PhiS m c t.val (Nat.le_of_lt t.isLt) := by
  dsimp only [dats]; simp only [Fin.coe_castSucc]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-! ## Where the output window is idle -/

theorem idleAt0_3 : ∀ t : Fin cfg0.N, ¬cond2 (grid0.coords t) → cfg0.idle 3 (grid0.coords t) = true := by decide +kernel
theorem noFlush0_3 : ∀ t : Fin cfg0.N, ¬cond2 (grid0.coords t) → (cfg0.win 3).flush t = false := by decide +kernel
theorem liveAt0_3 : ∀ t : Fin cfg0.N, cond2 (grid0.coords t) → cfg0.idle 3 (grid0.coords t) = false := by decide +kernel

/-- Each window's current staging memref at point `t`, as the pipeline passes it. -/
abbrev ms0 (t : Fin cfg0.N) : Memref sig .tc .vmem S1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .f32 := win0_3.stage (cfg0.slots t 3)
abbrev hs3 (t : Fin cfg0.N) : (ms3 t).IsWhole := hstage0_3 ((cfg0.slots t 3).cast nbuf0_3)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_in0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after0_0]
theorem leaves_in1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after0_1]
theorem leaves_in2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after0_2]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, show PhiS m c (t.val + 1) t.isLt = owns (c : Thread nD τ) scM fullShare (accAt m c t.val t.isLt) from rfl]
  rw [leaves_in0, leaves_in1, leaves_in2, PhiS_castSucc]
  have hN : t.val < 64 := lt_of_lt_of_eq t.isLt (show cfg0.N = 64 from N_0)
  by_cases h0 : t.val % 8 = 0
  · have hc1 : cond1 (grid0.coords t) := (hcond1 t).mpr h0
    have hc2 : ¬cond2 (grid0.coords t) := fun h => by have := (hcond2 t).mp h; omega
    rw [Dat.leavesExact_idle (dats m 0 c) 3 t (idleAt0_3 t hc2) (noFlush0_3 t hc2), accAt_reset m c t h0]
    by_cases hz : t.val = 0
    · rw [show PhiS m c t.val (Nat.le_of_lt t.isLt) = iprop(∃ d, owns (c : Thread nD τ) scM fullShare d) from by
        obtain ⟨n, hn⟩ := t; cases n with
        | zero => rfl
        | succ n => exact absurd hz (Nat.succ_ne_zero n)]
      iintro ⟨HS, Ho, ⟨%d0, H0⟩, ⟨%d1, H1⟩, ⟨%d2, H2⟩, ⟨%d3, H3⟩⟩
      iapply (run_A c (grid0.coords t) (ms0 t) (hs0 t) (ms1 t) (hs1 t) (ms2 t) (hs2 t) (ms3 t) (hs3 t) scM (Memref.isWhole_whole _) hc1 hc2 (xblk m c t) (yblk m c t) (mblk m c t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS]; · iexact HS
      isplitl [Ho]; · iexact Ho
      isplitl [H0]; · iexact H0
      isplitl [H1]; · iexact H1
      isplitl [H2]; · iexact H2
      iexists _; iexact H3
    · rw [PhiS_pos m c _ _ hz]
      iintro ⟨HS, Ho, ⟨%d0, H0⟩, ⟨%d1, H1⟩, ⟨%d2, H2⟩, ⟨%d3, H3⟩⟩
      iapply (run_A c (grid0.coords t) (ms0 t) (hs0 t) (ms1 t) (hs1 t) (ms2 t) (hs2 t) (ms3 t) (hs3 t) scM (Memref.isWhole_whole _) hc1 hc2 (xblk m c t) (yblk m c t) (mblk m c t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS]; · iexact HS
      isplitl [Ho]; · iexact Ho
      isplitl [H0]; · iexact H0
      isplitl [H1]; · iexact H1
      isplitl [H2]; · iexact H2
      iexists _; iexact H3
  · have hc1 : ¬cond1 (grid0.coords t) := fun h => h0 ((hcond1 t).mp h)
    have hz : t.val ≠ 0 := fun h => h0 (by rw [h])
    rw [PhiS_pos m c _ _ hz, accAt_carry m c t h0]
    by_cases h7 : t.val % 8 = 7
    · have hc2 : cond2 (grid0.coords t) := (hcond2 t).mpr h7
      rw [show (dats m 0 c).leavesExact 3 t = owns (c : Thread nD τ) (ms3 t) fullShare ((dats m 0 c).after 3 t) from by
        unfold Dat.leavesExact; rw [liveAt0_3 t hc2], after0_3, accAt_carry m c t h0]
      iintro ⟨HS, Ho, ⟨%d0, H0⟩, ⟨%d1, H1⟩, ⟨%d2, H2⟩, ⟨%d3, H3⟩⟩
      iapply (run_C c (grid0.coords t) (ms0 t) (hs0 t) (ms1 t) (hs1 t) (ms2 t) (hs2 t) (ms3 t) (hs3 t) scM (Memref.isWhole_whole _) hc1 hc2 (xblk m c t) (yblk m c t) (mblk m c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS]; · iexact HS
      isplitl [Ho]; · iexact Ho
      isplitl [H0]; · iexact H0
      isplitl [H1]; · iexact H1
      isplitl [H2]; · iexact H2
      iexact H3
    · have hc2 : ¬cond2 (grid0.coords t) := fun h => h7 ((hcond2 t).mp h)
      rw [Dat.leavesExact_idle (dats m 0 c) 3 t (idleAt0_3 t hc2) (noFlush0_3 t hc2)]
      iintro ⟨HS, Ho, ⟨%d0, H0⟩, ⟨%d1, H1⟩, ⟨%d2, H2⟩, ⟨%d3, H3⟩⟩
      iapply (run_B c (grid0.coords t) (ms0 t) (hs0 t) (ms1 t) (hs1 t) (ms2 t) (hs2 t) (ms3 t) (hs3 t) scM (Memref.isWhole_whole _) hc1 hc2 (xblk m c t) (yblk m c t) (mblk m c t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS]; · iexact HS
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand
end
-- ==== Proof.KLaunchBits.lean ====
/-
  The kernel program's run, as host operations, one kernel region, host operations.

  @main widens the mask to 32-bit words, launches the kernel — the table handed to it TWICE, as the window of row blocks
  and as the window of column blocks, so each window holds one half of the table's buffer and the two halves are put
  back together when the region ends —, and then runs 40 host operations on the kernel's result and the table. Every
  weakly fair execution ends with each buffer at what those operations compute from the table, the mask and the
  accumulated row sums the last write-backs left in the kernel's result array.
-/
import proofs.«151518_j26792005992920_1_alg».proof.Proof.KBodyBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays behind the windows, one by one -/

/-- The three distinct buffers behind the four windows. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1)) := by
  unfold Pipeline.arrBufs
  rw [bigSep_eq_bigSepL_of_eq [main_arg0, main_v0, main_v1] (by decide) (by decide)]
  rfl

/-- The pipeline's arrays window by window: the table's two halves, the widened mask, the result. -/
theorem arrays_eq4 (c : Dev nD) (Fa : (w : Fin cfg0.W) → Buf (Elt F) ((cfg0.win w).arr.view.loc (c : Thread nD τ))) :
    ((dats m 0 c).arrays Fa : sProp 𝕄)
      = iprop((((c : Thread nD τ).loc main_arg0) ↦{fullShare.left} Fa 0) ∗ (((c : Thread nD τ).loc main_arg0) ↦{fullShare.right} Fa 1)
          ∗ (((c : Thread nD τ).loc main_v0) ↦{fullShare} Fa 2) ∗ (((c : Thread nD τ).loc main_v1) ↦{fullShare} Fa 3)) := by
  unfold Dat.arrays
  rw [bigSep_W0, (arr_whole0 0).set_eq_univ, (arr_whole0 2).set_eq_univ, (arr_whole0 3).set_eq_univ]
  rfl

/-- ENTRY: the table's buffer is dealt to the two windows on it, half each. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq4]
  iintro ⟨H0, H2, H3⟩
  ihave H01 := (pointsTo_share (PosShare.mem_left_op_right fullShare)).1 $$ H0
  icases H01 with ⟨Hl, Hr⟩
  isplitl [Hl]; · iexact Hl
  isplitl [Hr]; · iexact Hr
  isplitl [H2]; · iexact H2
  iexact H3

/-! ## What the buffers hold along @main -/

/-- The kernel's result array after the last write-back. -/
abbrev outN (c : Dev nD) : Buf (Elt F) ((c : Thread nD τ).loc main_v1) := (dats m 0 c).arrAt 3 cfg0.N

/-- The buffers when the region ends: the result array as the write-backs left it, every other as the region found it. -/
abbrev V2 (c : Dev nD) : Valuation τ sig (Elt F) := Function.update (V1 m c) (Proc.devRef .tc main_v1) (outN m c)
/-- And after the three stretches of host operations that follow. -/
abbrev V3 (c : Dev nD) : Valuation τ sig (Elt F) := StableHlo.after hostOps1 (V2 m c)
abbrev V4 (c : Dev nD) : Valuation τ sig (Elt F) := StableHlo.after hostOps1_1 (V3 m c)
abbrev V5 (c : Dev nD) : Valuation τ sig (Elt F) := StableHlo.after hostOps1_2 (V4 m c)

theorem V2_v1 (c : Dev nD) : V2 m c (Proc.devRef .tc main_v1) = outN m c := Function.update_self ..
theorem V2_of_ne (c : Dev nD) (b : Ref sig .tc) (hb : b ≠ main_v1) : V2 m c (Proc.devRef .tc b) = V m c b :=
  Function.update_of_ne (fun h => hb (Proc.devRef_injective _ h)) ..

/-- EXIT: the two halves of the table's buffer are put back together. -/
theorem hjoin (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => V2 m c (Proc.devRef .tc b)) := by
  rw [arrBufs_eq, arrays_eq4, (dats m 0 c).arrAt_in 0 rfl, (dats m 0 c).arrAt_in 1 rfl, (dats m 0 c).arrAt_in 2 rfl,
    V2_of_ne m c main_arg0 (by decide), V2_of_ne m c main_v0 (by decide), V2_v1]
  show iprop((((c : Thread nD τ).loc main_arg0) ↦{fullShare.left} V m c main_arg0) ∗ (((c : Thread nD τ).loc main_arg0) ↦{fullShare.right} V m c main_arg0)
      ∗ (((c : Thread nD τ).loc main_v0) ↦{fullShare} V m c main_v0) ∗ (((c : Thread nD τ).loc main_v1) ↦{fullShare} outN m c))
    ⊢ iprop((((c : Thread nD τ).loc main_arg0) ↦{fullShare} V m c main_arg0) ∗ (((c : Thread nD τ).loc main_v0) ↦{fullShare} V m c main_v0)
      ∗ (((c : Thread nD τ).loc main_v1) ↦{fullShare} outN m c))
  iintro ⟨Hl, Hr, H2, H3⟩
  ihave H0 := (pointsTo_share (PosShare.mem_left_op_right fullShare)).2 $$ [Hl Hr]
  · isplitl [Hl]
    · iexact Hl
    · iexact Hr
  isplitl [H0]; · iexact H0
  isplitl [H2]; · iexact H2
  iexact H3

/-! ## @main as segments -/

abbrev EP : Emb (UR sig nD τ) (MT nD τ sig Unit (Elt F) ℕ (UR sig nD τ) ℕ) := emb₁
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev 𝒱₀ : Variants := Variants.none
/-- What rides beside the buffers: the core owes nothing. -/
abbrev R (c : Dev nD) : sProp 𝕄 := iprop(∃ W, owes (c : Thread nD τ) (0 : CellTallies nD τ sig Unit) W)

theorem fresh0 : ∀ op ∈ (hostOps0 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h
theorem fresh1_1 : ∀ op ∈ (hostOps1_1 : List (HloOp τ sig (Elt F))), op.fresh = ∅ := by
  intro _ h; (repeat (cases h with | head => rfl | tail _ h => ?_)); exact nomatch h
theorem fresh1_2 : ∀ op ∈ (hostOps1_2 : List (HloOp τ sig (Elt F))), op.fresh = ∅ := by
  intro _ h; (repeat (cases h with | head => rfl | tail _ h => ?_)); exact nomatch h

local notation "ℍ" => Pipeline.HostSeg (Name := ℕ) (U := UR sig nD τ) (pcfgs (F := F)) defs₀ 𝒱₀ L lv

def seg0 : ℍ := Pipeline.HostSeg.ofOps _ _ _ _ _ (Pipeline.ucRefs τ sig) hostOps0
  (fun op h => Pipeline.sub_ucRefs op ((List.forall_iff_forall_mem.mp hostOps0_sub) op h)) fresh0 (V0 m) R
def seg2 : ℍ := Pipeline.HostSeg.ofOps _ _ _ _ _ (Pipeline.ucRefs τ sig) hostOps1
  (fun op h => Pipeline.sub_ucRefs op ((List.forall_iff_forall_mem.mp hostOps1_sub) op h)) fresh1 (V2 m) R
def seg3 : ℍ := Pipeline.HostSeg.ofOps _ _ _ _ _ (Pipeline.ucRefs τ sig) hostOps1_1
  (fun op h => Pipeline.sub_ucRefs op ((List.forall_iff_forall_mem.mp hostOps1_1_sub) op h)) fresh1_1 (V3 m) R
def seg4 : ℍ := Pipeline.HostSeg.ofOps _ _ _ _ _ (Pipeline.ucRefs τ sig) hostOps1_2
  (fun op h => Pipeline.sub_ucRefs op ((List.forall_iff_forall_mem.mp hostOps1_2_sub) op h)) fresh1_2 (V4 m) R

theorem PhiS_last (c : Dev nD) : (dats m 0 c).Φ (Fin.last cfg0.N) = owns (c : Thread nD τ) scM fullShare (accAt m c 63 (by have h : cfg0.N = 64 := N_0; omega)) := by
  show PhiS m c (Fin.last cfg0.N).val _ = _
  rw [PhiS_pos m c _ _ (by have h : cfg0.N = 64 := N_0; rw [Fin.val_last]; omega)]
  congr 1

set_option backward.isDefEq.respectTransparency.types false in
/-- THE REGION: entered from what the first stretch left, the table's buffer dealt to the two windows on it; left with
    the result array at what the write-backs made it. -/
def reg0 : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m c) ∗ R c)
  X _ := iprop(emp)
  Y _ := iprop(emp)
  Z c := Pipeline.unscopedRest (Ix := Unit) (Name := ℕ) (U := UR sig nD τ) (Lvl := ℕ) spec0 c (V m c)
  hentry c := by
    rw [show StableHlo.held (c : Thread nD τ) (Pipeline.ucRefs τ sig) (V1 m c) = unscopedBufs c (V m c) from (Pipeline.unscopedBufs_held c _).symm,
      Pipeline.ownSems0_none, Pipeline.unscopedBufs_split₀ cfgs 0 winFacts₀0.arr_unscoped c (V m c)]
    iintro ⟨⟨⟨Ha, Hr⟩, HO⟩, -, -⟩
    imodintro
    isplitl [Ha]; · iapply (hsplit m c); iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = iprop(∃ d, owns (c : Thread nD τ) scM fullShare d) from rfl, scopedRest0_eq]
    simp only [scM, owns_whole]
    iintro ⟨-, -, Hr⟩; iexact Hr
  hout c := by
    rw [PhiS_last, Pipeline.ownSems0_none, scopedRest0_eq]
    simp only [scM, owns_whole]
    iintro HS
    isplitr; · iempintro
    isplitr; · iempintro
    iexists _; iexact HS
  hexit c := by
    rw [show StableHlo.held (c : Thread nD τ) (Pipeline.ucRefs τ sig) (V2 m c) = unscopedBufs c (fun b => V2 m c (Proc.devRef .tc b)) from (Pipeline.unscopedBufs_held c _).symm,
      Pipeline.unscopedBufs_split₀ cfgs 0 winFacts₀0.arr_unscoped c (fun b => V2 m c (Proc.devRef .tc b))]
    iintro ⟨Ha, HO, -, HZ⟩
    imodintro
    isplitr [HO]
    · isplitl [Ha]; · iapply (hjoin m c); iexact Ha
      iapply (show (Pipeline.unscopedRest (Ix := Unit) (Name := ℕ) (U := UR sig nD τ) (Lvl := ℕ) spec0 c (V m c) : sProp 𝕄)
          ⊢ Pipeline.unscopedRest spec0 c (fun b => V2 m c (Proc.devRef .tc b)) from by
        unfold Pipeline.unscopedRest
        exact Entails.of_eq (bigSep_congr fun b hb => by
          dsimp only
          rw [V2_of_ne m c b (fun h => (Finset.mem_sdiff.mp hb).2 (Finset.mem_image.mpr ⟨3, Finset.mem_univ _, h ▸ rfl⟩))]))
      iexact HZ
    · unfold Pipeline.Dat.owesAt Pipeline.owesWithin
      icases HO with ⟨%W, -, HO⟩; iexists W; iexact HO

/-- @main as the list of its five segments. -/
abbrev segs : List (Pipeline.Seg (pcfgs (F := F)) adm (dats m) () defs₀ 𝒱₀ L lv) :=
  [.host (seg0 m), .region (reg0 m), .host (seg2 m), .host (seg3 m), .host (seg4 m)]

theorem main_eq (c : Dev nD) : main (F := F) c = Pipeline.Seg.run (segs m) := by
  rw [main_chain, Pipeline.Seg.run_eq_chain]; rfl

/-- What the final state's memory holds on core `c`: every unscoped buffer at the last valuation. -/
def QY (c : Dev nD) (s : MemSt nD τ sig (Elt F)) : Prop :=
  ∀ b : Ref sig .tc, b.isScoped = false → s.mem ((c : Thread nD τ).loc b) = V5 m c (Proc.devRef .tc b)

set_option backward.isDefEq.respectTransparency.types false in
/-- THE RUN: from any memory with zero counters every weakly fair execution of @main terminates, and every final
    state has every buffer of @main at what the host operations compute from the launch contents and the kernel's
    result array. -/
theorem run_main : θ_run defs (onTc (τ := τ) (main (F := F))) (s₀ m ρ) (fun r => ∀ c : Dev nD, QY m c r.2) :=
  Pipeline.θ_run_regions_kit (pcfgs (F := F)) adm (dats m) () cellOf_inj EP defs₀ 𝒱₀ L lv m ρ main (segs m) (fun c Q => by rw [main_eq m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V5 m c))
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := QY m)
    (hfin := fun c s' => by
      rw [show StableHlo.held (c : Thread nD τ) (Pipeline.ucRefs τ sig) (V5 m c) = unscopedBufs c (fun b => V5 m c (Proc.devRef .tc b)) from (Pipeline.unscopedBufs_held c _).symm]
      unfold unscopedBufs
      iintro ⟨Hh, HSI⟩
      imodintro
      ihave Hr := (pointsTo_read_all (Finset.univ.filter fun b : Ref sig .tc => ¬ b.isScoped) (fun b => (c : Thread nD τ).loc b) (fun b => V5 m c (Proc.devRef .tc b)) s') $$ [Hh HSI]
      · isplitl [Hh] <;> iassumption
      icases Hr with ⟨%hr, HSI⟩
      isplitr; · ipureintro; exact fun b hb => hr b (Finset.mem_filter.mpr ⟨Finset.mem_univ _, by simp [hb]⟩)
      iexact HSI)
    (hQ := fun _ h => h)

/-! ## The arguments end as they were -/

/-- The one operation before the region writes neither argument. -/
theorem V_arg0 (c : Dev nD) : V m c main_arg0 = m ((c : Thread nD τ).loc main_arg0) := by
  dsimp only [V, V1]; simp only [hostOps0]; after_results
theorem V_arg1 (c : Dev nD) : V m c main_arg1 = m ((c : Thread nD τ).loc main_arg1) := by
  dsimp only [V, V1]; simp only [hostOps0]; after_results

/-- Nor does any operation after it. -/
theorem tail_keeps0 (W : Valuation τ sig (Elt F)) :
    StableHlo.after hostOps1_2 (StableHlo.after hostOps1_1 (StableHlo.after hostOps1 W)) (Proc.devRef .tc main_arg0) = W (Proc.devRef .tc main_arg0) := by
  simp only [hostOps1, hostOps1_1, hostOps1_2]; after_results
theorem tail_keeps1 (W : Valuation τ sig (Elt F)) :
    StableHlo.after hostOps1_2 (StableHlo.after hostOps1_1 (StableHlo.after hostOps1 W)) (Proc.devRef .tc main_arg1) = W (Proc.devRef .tc main_arg1) := by
  simp only [hostOps1, hostOps1_1, hostOps1_2]; after_results

theorem V5_arg0 (c : Dev nD) : V5 m c (Proc.devRef .tc main_arg0) = m ((c : Thread nD τ).loc main_arg0) :=
  (tail_keeps0 (V2 m c)).trans ((V2_of_ne m c main_arg0 (by decide)).trans (V_arg0 m c))
theorem V5_arg1 (c : Dev nD) : V5 m c (Proc.devRef .tc main_arg1) = m ((c : Thread nD τ).loc main_arg1) :=
  (tail_keeps1 (V2 m c)).trans ((V2_of_ne m c main_arg1 (by decide)).trans (V_arg1 m c))

/-- THE FRAME: every weakly fair execution of @main terminates, nothing faulting, and leaves both arguments as
    they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h c) main_arg0 rfl).trans (V5_arg0 m c), ((h c) main_arg1 rfl).trans (V5_arg1 m c)⟩) (run_main m ρ)

end Cert.Kernel.Hand

end
-- ==== Proof.KBody.lean ====
/-
  The kernel's body, point by point.

  The kernel walks an 8 by 8 grid of tiles of the 8192 by 8192 distance matrix, row tile by row tile. At point
  `t` (row tile `t / 8`, column tile `t % 8`) it holds the row block and the column block of the table (1024 rows
  each) and the mask's tile, and adds the tile's masked partial row sums to an accumulator column of 1024 entries,
  which it resets at the first column tile of a row tile and writes out at the last. This file runs the body in its
  three cases (reset, carry, write out), names what the accumulator holds after each point (`accAt`), and states
  the run at every point against the pipeline's proof data (`body_obligation`).
-/
import proofs.«151518_j26792005992920_1_alg».proof.Proof.Gen.KernelIdeal.Launch
import proofs.«151518_j26792005992920_1_alg».proof.Proof.Gen.KernelIdeal.Skeleton
import proofs.«151518_j26792005992920_1_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branches of the body, decided over the grid

The grid is 8 row tiles by 8 column tiles, walked row tile by row tile: point `t` is row tile `t / 8`, column tile
`t % 8`. The accumulator is reset at the first column tile of a row tile and written out at the last. -/

/-- The reset's condition (column tile 0) as the body computes it from the grid coordinates. -/
abbrev cond1 (i : grid0.Coords) : Prop := (Scalar.cmpi .ne (Scalar.extui (Scalar.cmpi .eq (BitVec.ofNat 32 (i 1).val) 0#32)) 0#32) = 1#1
theorem hcond1 : ∀ t : Fin cfg0.N, cond1 (grid0.coords t) ↔ t.val % 8 = 0 :=
  (by decide +kernel : ∀ t : Fin grid0.N, cond1 (grid0.coords t) ↔ t.val % 8 = 0)
/-- The write-out's condition (column tile 7). -/
abbrev cond2 (i : grid0.Coords) : Prop := k0_cond2 i = 1#1
theorem hcond2 : ∀ t : Fin cfg0.N, cond2 (grid0.coords t) ↔ t.val % 8 = 7 :=
  (by decide +kernel : ∀ t : Fin grid0.N, cond2 (grid0.coords t) ↔ t.val % 8 = 7)

/-- One point's update of the accumulator `s`: the tile's masked partial row sums, from the row block `x`, the column
    block `y` and the mask tile `msk`, added to it. -/
def step (x y : Vec F S1024x256 .f32) (msk : Vec F S1024x1024 .i32) (s : Vec F S1024x1 .f32) : Vec F S1024x1 .f32 :=
  k0_pay1 (k0_pay3 x y msk s)

theorem hz2 : (![0, 0] : Fin 2 → Nat) = fun _ => 0 := by funext a; fin_cases a <;> rfl

/-- A whole-block store, last, leaves its payload. -/
theorem read_store_last {S : Shape} {e : EltTy} (hS : S.rank = 2) {off : Fin S.rank → Nat} (hoff : off = fun _ => 0) (mr : Memref sig .tc .vmem S e) (f : mr.view.ty.Contents (Elt F))
    (inb : ∀ a, off a + S.size a ≤ S.size a) (w : S.Idx → Elt F e) (L : List (View.Piece (Elt F) S e)) :
    mr.view.read (Elt F) (mr.view.writes (Elt F) f (⟨Rect.unit off S.size inb, w⟩ :: L)) = w := by
  rw [View.read_writes_eq_canon _ _ _ (fun y => ⟨_, List.mem_cons_self, View.mem_set_unit_zero hoff inb y⟩), View.canon_cons_unit_zero hoff]

set_option maxHeartbeats 1000000 in
/-- A point that is neither the first nor the last column tile of its row tile: the accumulator `s` is updated, the
    output's buffer is not touched. -/
theorem run_B (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1024x1 .f32) (harg6 : arg6.IsWhole)
    (hc1 : ¬cond1 i) (hc2 : ¬cond2 i)
    (x y : Vec F S1024x256 .f32) (msk : Vec F S1024x1024 .i32) (o s : Vec F S1024x1 .f32) (E : Set ℕ) (K : PUnit → sProp 𝕄) :
    iprop(owns (c : Thread nD τ) arg2 fullShare x ∗ owns (c : Thread nD τ) arg3 fullShare y ∗ owns (c : Thread nD τ) arg4 fullShare msk
        ∗ owns (c : Thread nD τ) arg5 fullShare o ∗ owns (c : Thread nD τ) arg6 fullShare s
        ∗ (iprop(owns (c : Thread nD τ) arg2 fullShare x ∗ owns (c : Thread nD τ) arg3 fullShare y ∗ owns (c : Thread nD τ) arg4 fullShare msk
            ∗ owns (c : Thread nD τ) arg5 fullShare o ∗ owns (c : Thread nD τ) arg6 fullShare (step x y msk s)) -∗ K ⟨⟩))
      ⊢ wp frame (wpE (defs₀ (F := F)) Variants.none c none) E (cc0__rowsum_kernel i arg2 harg2 arg3 harg3 arg4 harg4 arg5 harg5 arg6 harg6) K := by
  simp only [cc0__rowsum_kernel_eq_skeleton]; unfold cc0__rowsum_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc1 | exact hc2)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  iexists _; isplitr; swap; · iexact HS
  ipureintro
  rw [read_store_last (by rfl) hz2]
  simp only [View.readAt_eq_ld, harg2.read_unread, harg3.read_unread, harg4.read_unread, harg6.read_unread,
    View.ld_unit_zero (S := S1024x256) hz2, View.ld_unit_zero (S := S1024x1024) hz2, View.ld_unit_zero (S := S1024x1) hz2]
  rfl

set_option maxHeartbeats 1000000 in
/-- The first column tile of a row tile: the accumulator is reset to zero, then updated. -/
theorem run_A (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1024x1 .f32) (harg6 : arg6.IsWhole)
    (hc1 : cond1 i) (hc2 : ¬cond2 i)
    (x y : Vec F S1024x256 .f32) (msk : Vec F S1024x1024 .i32) (o : Vec F S1024x1 .f32) (E : Set ℕ) (K : PUnit → sProp 𝕄) :
    iprop(owns (c : Thread nD τ) arg2 fullShare x ∗ owns (c : Thread nD τ) arg3 fullShare y ∗ owns (c : Thread nD τ) arg4 fullShare msk
        ∗ owns (c : Thread nD τ) arg5 fullShare o ∗ (∃ d, owns (c : Thread nD τ) arg6 fullShare d)
        ∗ (iprop(owns (c : Thread nD τ) arg2 fullShare x ∗ owns (c : Thread nD τ) arg3 fullShare y ∗ owns (c : Thread nD τ) arg4 fullShare msk
            ∗ owns (c : Thread nD τ) arg5 fullShare o ∗ owns (c : Thread nD τ) arg6 fullShare (step x y msk k0_pay2)) -∗ K ⟨⟩))
      ⊢ wp frame (wpE (defs₀ (F := F)) Variants.none c none) E (cc0__rowsum_kernel i arg2 harg2 arg3 harg3 arg4 harg4 arg5 harg5 arg6 harg6) K := by
  simp only [cc0__rowsum_kernel_eq_skeleton]; unfold cc0__rowsum_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%ds, %fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc1 | exact hc2)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  iexists _; isplitr; swap; · iexact HS
  ipureintro
  sl_unfold_words
  rw [read_store_last (by rfl) hz2]
  simp only [View.readAt_eq_ld, harg2.read_unread, harg3.read_unread, harg4.read_unread, harg6.read_unread,
    View.ld_unit_zero (S := S1024x256) hz2, View.ld_unit_zero (S := S1024x1024) hz2, View.ld_unit_zero (S := S1024x1) hz2,
    View.readCov_unit_zero (S := S1024x1) _ hz2]
  rfl

set_option maxHeartbeats 1000000 in
/-- The last column tile of a row tile: the accumulator is updated and copied into the output's buffer. -/
theorem run_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1024x1 .f32) (harg6 : arg6.IsWhole)
    (hc1 : ¬cond1 i) (hc2 : cond2 i)
    (x y : Vec F S1024x256 .f32) (msk : Vec F S1024x1024 .i32) (s : Vec F S1024x1 .f32) (E : Set ℕ) (K : PUnit → sProp 𝕄) :
    iprop(owns (c : Thread nD τ) arg2 fullShare x ∗ owns (c : Thread nD τ) arg3 fullShare y ∗ owns (c : Thread nD τ) arg4 fullShare msk
        ∗ (∃ d, owns (c : Thread nD τ) arg5 fullShare d) ∗ owns (c : Thread nD τ) arg6 fullShare s
        ∗ (iprop(owns (c : Thread nD τ) arg2 fullShare x ∗ owns (c : Thread nD τ) arg3 fullShare y ∗ owns (c : Thread nD τ) arg4 fullShare msk
            ∗ owns (c : Thread nD τ) arg5 fullShare (step x y msk s) ∗ owns (c : Thread nD τ) arg6 fullShare (step x y msk s)) -∗ K ⟨⟩))
      ⊢ wp frame (wpE (defs₀ (F := F)) Variants.none c none) E (cc0__rowsum_kernel i arg2 harg2 arg3 harg3 arg4 harg4 arg5 harg5 arg6 harg6) K := by
  simp only [cc0__rowsum_kernel_eq_skeleton]; unfold cc0__rowsum_kernel_skel
  simp only [k0_part1_eq_skeleton]; unfold k0_part1_skel
  unfold owns
  iintro ⟨⟨%f0, %hf0, H0⟩, ⟨%f1, %hf1, H1⟩, ⟨%f2, %hf2, H2⟩, ⟨%d3, %f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc1 | exact hc2)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]
  · iexists _; isplitr; swap; · iexact H3
    ipureintro
    sl_unfold_words
    rw [read_store_last (by rfl) hz2]
    simp only [View.readAt_eq_ld, harg2.read_unread, harg3.read_unread, harg4.read_unread, harg6.read_unread,
      View.ld_unit_zero (S := S1024x256) hz2, View.ld_unit_zero (S := S1024x1024) hz2, View.ld_unit_zero (S := S1024x1) hz2,
      View.readCov_unit_zero (S := S1024x1) _ hz2]
    rfl
  iexists _; isplitr; swap; · iexact HS
  ipureintro
  sl_unfold_words
  rw [read_store_last (by rfl) hz2]
  simp only [View.readAt_eq_ld, harg2.read_unread, harg3.read_unread, harg4.read_unread, harg6.read_unread,
    View.ld_unit_zero (S := S1024x256) hz2, View.ld_unit_zero (S := S1024x1024) hz2, View.ld_unit_zero (S := S1024x1) hz2,
    View.readCov_unit_zero (S := S1024x1) _ hz2]
  rfl

variable (m : (ℓ : Loc nD τ sig) → Buf (Elt F) ℓ) (ρ : Dev nD → PrngReg)

/-! ## The arrays the region finds, and their blocks -/

/-- Core `c`'s buffers as launched, and when the region is entered: the mask has been widened to 32-bit words. -/
abbrev V0 (c : Dev nD) : Valuation τ sig (Elt F) := fun b => m (c, b)
abbrev V1 (c : Dev nD) : Valuation τ sig (Elt F) := StableHlo.after hostOps0 (V0 m c)
abbrev V (c : Dev nD) (b : Ref sig .tc) : Buf (Elt F) ((c : Thread nD τ).loc b) := V1 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row block, the column block and the mask tile of point `t`, at their literal types. -/
abbrev xblk (c : Dev nD) (t : Fin cfg0.N) : Vec F S1024x256 .f32 := iblk m c 0 t
abbrev yblk (c : Dev nD) (t : Fin cfg0.N) : Vec F S1024x256 .f32 := iblk m c 1 t
abbrev mblk (c : Dev nD) (t : Fin cfg0.N) : Vec F S1024x1024 .i32 := iblk m c 2 t

/-- THE ACCUMULATOR after point `n`: reset at the first column tile of a row tile, else carried from the point before. -/
def accAt (c : Dev nD) : (n : ℕ) → n < cfg0.N → Vec F S1024x1 .f32
  | 0, h => step (xblk m c ⟨0, h⟩) (yblk m c ⟨0, h⟩) (mblk m c ⟨0, h⟩) k0_pay2
  | n + 1, h =>
    if (n + 1) % 8 = 0 then step (xblk m c ⟨n + 1, h⟩) (yblk m c ⟨n + 1, h⟩) (mblk m c ⟨n + 1, h⟩) k0_pay2
    else step (xblk m c ⟨n + 1, h⟩) (yblk m c ⟨n + 1, h⟩) (mblk m c ⟨n + 1, h⟩) (accAt c n (Nat.lt_of_succ_lt h))

theorem accAt_reset (c : Dev nD) (t : Fin cfg0.N) (h : t.val % 8 = 0) :
    accAt m c t.val t.isLt = step (xblk m c t) (yblk m c t) (mblk m c t) k0_pay2 := by
  obtain ⟨n, hn⟩ := t
  cases n with
  | zero => rfl
  | succ n => exact if_pos h

theorem accAt_carry (c : Dev nD) (t : Fin cfg0.N) (h : ¬t.val % 8 = 0) :
    accAt m c t.val t.isLt = step (xblk m c t) (yblk m c t) (mblk m c t) (accAt m c (t.val - 1) (Nat.lt_of_le_of_lt (Nat.sub_le _ _) t.isLt)) := by
  obtain ⟨n, hn⟩ := t
  cases n with
  | zero => exact absurd (Nat.zero_mod _) h
  | succ n => exact if_neg h

/-- The scratch the kernel carries between points, as a memref. -/
abbrev scM : Memref sig .tc .vmem S1024x1 .f32 := Memref.whole cc0_scratch0

/-- The region invariant before position `n`: before the first point the scratch at anything; afterwards at the
    accumulator the point before left. -/
def PhiS (c : Dev nD) : (n : ℕ) → n ≤ cfg0.N → sProp 𝕄
  | 0, _ => iprop(∃ d, owns (c : Thread nD τ) scM fullShare d)
  | n + 1, hn => owns (c : Thread nD τ) scM fullShare (accAt m c n hn)

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The pipeline's proof data -/

/-- The table is handed to the kernel twice, as the row window and as the column window: each holds half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accAt m c t.val t.isLt
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = accAt m c t.val t.isLt := by dsimp only [dats]

theorem PhiS_castSucc (c : Dev nD) (t : Fin cfg0.N) :
    (dats m 0 c).Φ t.castSucc = PhiS m c t.val (Nat.le_of_lt t.isLt) := by
  dsimp only [dats]; simp only [Fin.coe_castSucc]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-! ## Where the output window is idle -/

theorem idleAt0_3 : ∀ t : Fin cfg0.N, ¬cond2 (grid0.coords t) → cfg0.idle 3 (grid0.coords t) = true := by decide +kernel
theorem noFlush0_3 : ∀ t : Fin cfg0.N, ¬cond2 (grid0.coords t) → (cfg0.win 3).flush t = false := by decide +kernel
theorem liveAt0_3 : ∀ t : Fin cfg0.N, cond2 (grid0.coords t) → cfg0.idle 3 (grid0.coords t) = false := by decide +kernel

/-- Each window's current staging memref at point `t`, as the pipeline passes it. -/
abbrev ms0 (t : Fin cfg0.N) : Memref sig .tc .vmem S1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .f32 := win0_3.stage (cfg0.slots t 3)
abbrev hs3 (t : Fin cfg0.N) : (ms3 t).IsWhole := hstage0_3 ((cfg0.slots t 3).cast nbuf0_3)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_in0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after0_0]
theorem leaves_in1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after0_1]
theorem leaves_in2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after0_2]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, show PhiS m c (t.val + 1) t.isLt = owns (c : Thread nD τ) scM fullShare (accAt m c t.val t.isLt) from rfl]
  rw [leaves_in0, leaves_in1, leaves_in2, PhiS_castSucc]
  have hN : t.val < 64 := lt_of_lt_of_eq t.isLt (show cfg0.N = 64 from N_0)
  by_cases h0 : t.val % 8 = 0
  · have hc1 : cond1 (grid0.coords t) := (hcond1 t).mpr h0
    have hc2 : ¬cond2 (grid0.coords t) := fun h => by have := (hcond2 t).mp h; omega
    rw [Dat.leavesExact_idle (dats m 0 c) 3 t (idleAt0_3 t hc2) (noFlush0_3 t hc2), accAt_reset m c t h0]
    by_cases hz : t.val = 0
    · rw [show PhiS m c t.val (Nat.le_of_lt t.isLt) = iprop(∃ d, owns (c : Thread nD τ) scM fullShare d) from by
        obtain ⟨n, hn⟩ := t; cases n with
        | zero => rfl
        | succ n => exact absurd hz (Nat.succ_ne_zero n)]
      iintro ⟨HS, Ho, ⟨%d0, H0⟩, ⟨%d1, H1⟩, ⟨%d2, H2⟩, ⟨%d3, H3⟩⟩
      iapply (run_A c (grid0.coords t) (ms0 t) (hs0 t) (ms1 t) (hs1 t) (ms2 t) (hs2 t) (ms3 t) (hs3 t) scM (Memref.isWhole_whole _) hc1 hc2 (xblk m c t) (yblk m c t) (mblk m c t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS]; · iexact HS
      isplitl [Ho]; · iexact Ho
      isplitl [H0]; · iexact H0
      isplitl [H1]; · iexact H1
      isplitl [H2]; · iexact H2
      iexists _; iexact H3
    · rw [PhiS_pos m c _ _ hz]
      iintro ⟨HS, Ho, ⟨%d0, H0⟩, ⟨%d1, H1⟩, ⟨%d2, H2⟩, ⟨%d3, H3⟩⟩
      iapply (run_A c (grid0.coords t) (ms0 t) (hs0 t) (ms1 t) (hs1 t) (ms2 t) (hs2 t) (ms3 t) (hs3 t) scM (Memref.isWhole_whole _) hc1 hc2 (xblk m c t) (yblk m c t) (mblk m c t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS]; · iexact HS
      isplitl [Ho]; · iexact Ho
      isplitl [H0]; · iexact H0
      isplitl [H1]; · iexact H1
      isplitl [H2]; · iexact H2
      iexists _; iexact H3
  · have hc1 : ¬cond1 (grid0.coords t) := fun h => h0 ((hcond1 t).mp h)
    have hz : t.val ≠ 0 := fun h => h0 (by rw [h])
    rw [PhiS_pos m c _ _ hz, accAt_carry m c t h0]
    by_cases h7 : t.val % 8 = 7
    · have hc2 : cond2 (grid0.coords t) := (hcond2 t).mpr h7
      rw [show (dats m 0 c).leavesExact 3 t = owns (c : Thread nD τ) (ms3 t) fullShare ((dats m 0 c).after 3 t) from by
        unfold Dat.leavesExact; rw [liveAt0_3 t hc2], after0_3, accAt_carry m c t h0]
      iintro ⟨HS, Ho, ⟨%d0, H0⟩, ⟨%d1, H1⟩, ⟨%d2, H2⟩, ⟨%d3, H3⟩⟩
      iapply (run_C c (grid0.coords t) (ms0 t) (hs0 t) (ms1 t) (hs1 t) (ms2 t) (hs2 t) (ms3 t) (hs3 t) scM (Memref.isWhole_whole _) hc1 hc2 (xblk m c t) (yblk m c t) (mblk m c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS]; · iexact HS
      isplitl [Ho]; · iexact Ho
      isplitl [H0]; · iexact H0
      isplitl [H1]; · iexact H1
      isplitl [H2]; · iexact H2
      iexact H3
    · have hc2 : ¬cond2 (grid0.coords t) := fun h => h7 ((hcond2 t).mp h)
      rw [Dat.leavesExact_idle (dats m 0 c) 3 t (idleAt0_3 t hc2) (noFlush0_3 t hc2)]
      iintro ⟨HS, Ho, ⟨%d0, H0⟩, ⟨%d1, H1⟩, ⟨%d2, H2⟩, ⟨%d3, H3⟩⟩
      iapply (run_B c (grid0.coords t) (ms0 t) (hs0 t) (ms1 t) (hs1 t) (ms2 t) (hs2 t) (ms3 t) (hs3 t) scM (Memref.isWhole_whole _) hc1 hc2 (xblk m c t) (yblk m c t) (mblk m c t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS]; · iexact HS
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand
end
-- ==== Proof.KLaunch.lean ====
/-
  The kernel program's run, as host operations, one kernel region, host operations.

  @main widens the mask to 32-bit words, launches the kernel — the table handed to it TWICE, as the window of row blocks
  and as the window of column blocks, so each window holds one half of the table's buffer and the two halves are put
  back together when the region ends —, and then runs 40 host operations on the kernel's result and the table. Every
  weakly fair execution ends with each buffer at what those operations compute from the table, the mask and the
  accumulated row sums the last write-backs left in the kernel's result array.
-/
import proofs.«151518_j26792005992920_1_alg».proof.Proof.KBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays behind the windows, one by one -/

/-- The three distinct buffers behind the four windows. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1)) := by
  unfold Pipeline.arrBufs
  rw [bigSep_eq_bigSepL_of_eq [main_arg0, main_v0, main_v1] (by decide) (by decide)]
  rfl

/-- The pipeline's arrays window by window: the table's two halves, the widened mask, the result. -/
theorem arrays_eq4 (c : Dev nD) (Fa : (w : Fin cfg0.W) → Buf (Elt F) ((cfg0.win w).arr.view.loc (c : Thread nD τ))) :
    ((dats m 0 c).arrays Fa : sProp 𝕄)
      = iprop((((c : Thread nD τ).loc main_arg0) ↦{fullShare.left} Fa 0) ∗ (((c : Thread nD τ).loc main_arg0) ↦{fullShare.right} Fa 1)
          ∗ (((c : Thread nD τ).loc main_v0) ↦{fullShare} Fa 2) ∗ (((c : Thread nD τ).loc main_v1) ↦{fullShare} Fa 3)) := by
  unfold Dat.arrays
  rw [bigSep_W0, (arr_whole0 0).set_eq_univ, (arr_whole0 2).set_eq_univ, (arr_whole0 3).set_eq_univ]
  rfl

/-- ENTRY: the table's buffer is dealt to the two windows on it, half each. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq4]
  iintro ⟨H0, H2, H3⟩
  ihave H01 := (pointsTo_share (PosShare.mem_left_op_right fullShare)).1 $$ H0
  icases H01 with ⟨Hl, Hr⟩
  isplitl [Hl]; · iexact Hl
  isplitl [Hr]; · iexact Hr
  isplitl [H2]; · iexact H2
  iexact H3

/-! ## What the buffers hold along @main -/

/-- The kernel's result array after the last write-back. -/
abbrev outN (c : Dev nD) : Buf (Elt F) ((c : Thread nD τ).loc main_v1) := (dats m 0 c).arrAt 3 cfg0.N

/-- The buffers when the region ends: the result array as the write-backs left it, every other as the region found it. -/
abbrev V2 (c : Dev nD) : Valuation τ sig (Elt F) := Function.update (V1 m c) (Proc.devRef .tc main_v1) (outN m c)
/-- And after the three stretches of host operations that follow. -/
abbrev V3 (c : Dev nD) : Valuation τ sig (Elt F) := StableHlo.after hostOps1 (V2 m c)
abbrev V4 (c : Dev nD) : Valuation τ sig (Elt F) := StableHlo.after hostOps1_1 (V3 m c)
abbrev V5 (c : Dev nD) : Valuation τ sig (Elt F) := StableHlo.after hostOps1_2 (V4 m c)

theorem V2_v1 (c : Dev nD) : V2 m c (Proc.devRef .tc main_v1) = outN m c := Function.update_self ..
theorem V2_of_ne (c : Dev nD) (b : Ref sig .tc) (hb : b ≠ main_v1) : V2 m c (Proc.devRef .tc b) = V m c b :=
  Function.update_of_ne (fun h => hb (Proc.devRef_injective _ h)) ..

/-- EXIT: the two halves of the table's buffer are put back together. -/
theorem hjoin (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => V2 m c (Proc.devRef .tc b)) := by
  rw [arrBufs_eq, arrays_eq4, (dats m 0 c).arrAt_in 0 rfl, (dats m 0 c).arrAt_in 1 rfl, (dats m 0 c).arrAt_in 2 rfl,
    V2_of_ne m c main_arg0 (by decide), V2_of_ne m c main_v0 (by decide), V2_v1]
  show iprop((((c : Thread nD τ).loc main_arg0) ↦{fullShare.left} V m c main_arg0) ∗ (((c : Thread nD τ).loc main_arg0) ↦{fullShare.right} V m c main_arg0)
      ∗ (((c : Thread nD τ).loc main_v0) ↦{fullShare} V m c main_v0) ∗ (((c : Thread nD τ).loc main_v1) ↦{fullShare} outN m c))
    ⊢ iprop((((c : Thread nD τ).loc main_arg0) ↦{fullShare} V m c main_arg0) ∗ (((c : Thread nD τ).loc main_v0) ↦{fullShare} V m c main_v0)
      ∗ (((c : Thread nD τ).loc main_v1) ↦{fullShare} outN m c))
  iintro ⟨Hl, Hr, H2, H3⟩
  ihave H0 := (pointsTo_share (PosShare.mem_left_op_right fullShare)).2 $$ [Hl Hr]
  · isplitl [Hl]
    · iexact Hl
    · iexact Hr
  isplitl [H0]; · iexact H0
  isplitl [H2]; · iexact H2
  iexact H3

/-! ## @main as segments -/

abbrev EP : Emb (UR sig nD τ) (MT nD τ sig Unit (Elt F) ℕ (UR sig nD τ) ℕ) := emb₁
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev 𝒱₀ : Variants := Variants.none
/-- What rides beside the buffers: the core owes nothing. -/
abbrev R (c : Dev nD) : sProp 𝕄 := iprop(∃ W, owes (c : Thread nD τ) (0 : CellTallies nD τ sig Unit) W)

theorem fresh0 : ∀ op ∈ (hostOps0 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h
theorem fresh1_1 : ∀ op ∈ (hostOps1_1 : List (HloOp τ sig (Elt F))), op.fresh = ∅ := by
  intro _ h; (repeat (cases h with | head => rfl | tail _ h => ?_)); exact nomatch h
theorem fresh1_2 : ∀ op ∈ (hostOps1_2 : List (HloOp τ sig (Elt F))), op.fresh = ∅ := by
  intro _ h; (repeat (cases h with | head => rfl | tail _ h => ?_)); exact nomatch h

local notation "ℍ" => Pipeline.HostSeg (Name := ℕ) (U := UR sig nD τ) (pcfgs (F := F)) defs₀ 𝒱₀ L lv

def seg0 : ℍ := Pipeline.HostSeg.ofOps _ _ _ _ _ (Pipeline.ucRefs τ sig) hostOps0
  (fun op h => Pipeline.sub_ucRefs op ((List.forall_iff_forall_mem.mp hostOps0_sub) op h)) fresh0 (V0 m) R
def seg2 : ℍ := Pipeline.HostSeg.ofOps _ _ _ _ _ (Pipeline.ucRefs τ sig) hostOps1
  (fun op h => Pipeline.sub_ucRefs op ((List.forall_iff_forall_mem.mp hostOps1_sub) op h)) fresh1 (V2 m) R
def seg3 : ℍ := Pipeline.HostSeg.ofOps _ _ _ _ _ (Pipeline.ucRefs τ sig) hostOps1_1
  (fun op h => Pipeline.sub_ucRefs op ((List.forall_iff_forall_mem.mp hostOps1_1_sub) op h)) fresh1_1 (V3 m) R
def seg4 : ℍ := Pipeline.HostSeg.ofOps _ _ _ _ _ (Pipeline.ucRefs τ sig) hostOps1_2
  (fun op h => Pipeline.sub_ucRefs op ((List.forall_iff_forall_mem.mp hostOps1_2_sub) op h)) fresh1_2 (V4 m) R

theorem PhiS_last (c : Dev nD) : (dats m 0 c).Φ (Fin.last cfg0.N) = owns (c : Thread nD τ) scM fullShare (accAt m c 63 (by have h : cfg0.N = 64 := N_0; omega)) := by
  show PhiS m c (Fin.last cfg0.N).val _ = _
  rw [PhiS_pos m c _ _ (by have h : cfg0.N = 64 := N_0; rw [Fin.val_last]; omega)]
  congr 1

set_option backward.isDefEq.respectTransparency.types false in
/-- THE REGION: entered from what the first stretch left, the table's buffer dealt to the two windows on it; left with
    the result array at what the write-backs made it. -/
def reg0 : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m c) ∗ R c)
  X _ := iprop(emp)
  Y _ := iprop(emp)
  Z c := Pipeline.unscopedRest (Ix := Unit) (Name := ℕ) (U := UR sig nD τ) (Lvl := ℕ) spec0 c (V m c)
  hentry c := by
    rw [show StableHlo.held (c : Thread nD τ) (Pipeline.ucRefs τ sig) (V1 m c) = unscopedBufs c (V m c) from (Pipeline.unscopedBufs_held c _).symm,
      Pipeline.ownSems0_none, Pipeline.unscopedBufs_split₀ cfgs 0 winFacts₀0.arr_unscoped c (V m c)]
    iintro ⟨⟨⟨Ha, Hr⟩, HO⟩, -, -⟩
    imodintro
    isplitl [Ha]; · iapply (hsplit m c); iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = iprop(∃ d, owns (c : Thread nD τ) scM fullShare d) from rfl, scopedRest0_eq]
    simp only [scM, owns_whole]
    iintro ⟨-, -, Hr⟩; iexact Hr
  hout c := by
    rw [PhiS_last, Pipeline.ownSems0_none, scopedRest0_eq]
    simp only [scM, owns_whole]
    iintro HS
    isplitr; · iempintro
    isplitr; · iempintro
    iexists _; iexact HS
  hexit c := by
    rw [show StableHlo.held (c : Thread nD τ) (Pipeline.ucRefs τ sig) (V2 m c) = unscopedBufs c (fun b => V2 m c (Proc.devRef .tc b)) from (Pipeline.unscopedBufs_held c _).symm,
      Pipeline.unscopedBufs_split₀ cfgs 0 winFacts₀0.arr_unscoped c (fun b => V2 m c (Proc.devRef .tc b))]
    iintro ⟨Ha, HO, -, HZ⟩
    imodintro
    isplitr [HO]
    · isplitl [Ha]; · iapply (hjoin m c); iexact Ha
      iapply (show (Pipeline.unscopedRest (Ix := Unit) (Name := ℕ) (U := UR sig nD τ) (Lvl := ℕ) spec0 c (V m c) : sProp 𝕄)
          ⊢ Pipeline.unscopedRest spec0 c (fun b => V2 m c (Proc.devRef .tc b)) from by
        unfold Pipeline.unscopedRest
        exact Entails.of_eq (bigSep_congr fun b hb => by
          dsimp only
          rw [V2_of_ne m c b (fun h => (Finset.mem_sdiff.mp hb).2 (Finset.mem_image.mpr ⟨3, Finset.mem_univ _, h ▸ rfl⟩))]))
      iexact HZ
    · unfold Pipeline.Dat.owesAt Pipeline.owesWithin
      icases HO with ⟨%W, -, HO⟩; iexists W; iexact HO

/-- @main as the list of its five segments. -/
abbrev segs : List (Pipeline.Seg (pcfgs (F := F)) adm (dats m) () defs₀ 𝒱₀ L lv) :=
  [.host (seg0 m), .region (reg0 m), .host (seg2 m), .host (seg3 m), .host (seg4 m)]

theorem main_eq (c : Dev nD) : main (F := F) c = Pipeline.Seg.run (segs m) := by
  rw [main_chain, Pipeline.Seg.run_eq_chain]; rfl

/-- What the final state's memory holds on core `c`: every unscoped buffer at the last valuation. -/
def QY (c : Dev nD) (s : MemSt nD τ sig (Elt F)) : Prop :=
  ∀ b : Ref sig .tc, b.isScoped = false → s.mem ((c : Thread nD τ).loc b) = V5 m c (Proc.devRef .tc b)

set_option backward.isDefEq.respectTransparency.types false in
/-- THE RUN: from any memory with zero counters every weakly fair execution of @main terminates, and every final
    state has every buffer of @main at what the host operations compute from the launch contents and the kernel's
    result array. -/
theorem run_main : θ_run defs (onTc (τ := τ) (main (F := F))) (s₀ m ρ) (fun r => ∀ c : Dev nD, QY m c r.2) :=
  Pipeline.θ_run_regions_kit (pcfgs (F := F)) adm (dats m) () cellOf_inj EP defs₀ 𝒱₀ L lv m ρ main (segs m) (fun c Q => by rw [main_eq m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V5 m c))
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := QY m)
    (hfin := fun c s' => by
      rw [show StableHlo.held (c : Thread nD τ) (Pipeline.ucRefs τ sig) (V5 m c) = unscopedBufs c (fun b => V5 m c (Proc.devRef .tc b)) from (Pipeline.unscopedBufs_held c _).symm]
      unfold unscopedBufs
      iintro ⟨Hh, HSI⟩
      imodintro
      ihave Hr := (pointsTo_read_all (Finset.univ.filter fun b : Ref sig .tc => ¬ b.isScoped) (fun b => (c : Thread nD τ).loc b) (fun b => V5 m c (Proc.devRef .tc b)) s') $$ [Hh HSI]
      · isplitl [Hh] <;> iassumption
      icases Hr with ⟨%hr, HSI⟩
      isplitr; · ipureintro; exact fun b hb => hr b (Finset.mem_filter.mpr ⟨Finset.mem_univ _, by simp [hb]⟩)
      iexact HSI)
    (hQ := fun _ h => h)

/-! ## The arguments end as they were -/

/-- The one operation before the region writes neither argument. -/
theorem V_arg0 (c : Dev nD) : V m c main_arg0 = m ((c : Thread nD τ).loc main_arg0) := by
  dsimp only [V, V1]; simp only [hostOps0]; after_results
theorem V_arg1 (c : Dev nD) : V m c main_arg1 = m ((c : Thread nD τ).loc main_arg1) := by
  dsimp only [V, V1]; simp only [hostOps0]; after_results

/-- Nor does any operation after it. -/
theorem tail_keeps0 (W : Valuation τ sig (Elt F)) :
    StableHlo.after hostOps1_2 (StableHlo.after hostOps1_1 (StableHlo.after hostOps1 W)) (Proc.devRef .tc main_arg0) = W (Proc.devRef .tc main_arg0) := by
  simp only [hostOps1, hostOps1_1, hostOps1_2]; after_results
theorem tail_keeps1 (W : Valuation τ sig (Elt F)) :
    StableHlo.after hostOps1_2 (StableHlo.after hostOps1_1 (StableHlo.after hostOps1 W)) (Proc.devRef .tc main_arg1) = W (Proc.devRef .tc main_arg1) := by
  simp only [hostOps1, hostOps1_1, hostOps1_2]; after_results

theorem V5_arg0 (c : Dev nD) : V5 m c (Proc.devRef .tc main_arg0) = m ((c : Thread nD τ).loc main_arg0) :=
  (tail_keeps0 (V2 m c)).trans ((V2_of_ne m c main_arg0 (by decide)).trans (V_arg0 m c))
theorem V5_arg1 (c : Dev nD) : V5 m c (Proc.devRef .tc main_arg1) = m ((c : Thread nD τ).loc main_arg1) :=
  (tail_keeps1 (V2 m c)).trans ((V2_of_ne m c main_arg1 (by decide)).trans (V_arg1 m c))

/-- THE FRAME: every weakly fair execution of @main terminates, nothing faulting, and leaves both arguments as
    they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h c) main_arg0 rfl).trans (V5_arg0 m c), ((h c) main_arg1 rfl).trans (V5_arg1 m c)⟩) (run_main m ρ)

end Cert.KernelIdeal.Hand

end
-- ==== Proof.Spec.lean ====
/-
  The mathematics of the certificate, free of either program.

  An embedding table `E` of 8192 rows and 256 columns and a Boolean mask `M` of 8192 by 8192 entries give, for each
  anchor row `p` below 4096, the quantity

      j p = log (R p + R (p + 4096)) + d (p, p + 4096),

  where `d (i, j) = sqrt (max (|E i|² + |E j|² - 2 ⟨E i, E j⟩, 0) + ε)` is the distance of rows `i` and `j` and
  `R i = ∑ j, [M (i, j)] · exp (1/2 - d (i, j))` is the masked row sum. The loss is one fixed function of the vector
  `j` (`lossTail`). Both programs compute `lossTail j`; they differ in how they reach `j`:

  * one spells the anchor-positive distance through the same Gram expansion as every other distance, takes each
    squared norm as a sum started from a zero, and sums a row of 8192 terms at once (`jR`);
  * the other takes that distance from the squared differences `∑ k, (E (p, k) - E (p + 4096, k))²`, and adds a
    row's terms in eight runs of 1024 consecutive columns onto an accumulator started at zero (`jK`).

  Over finite reals the two agree: the square of a difference expands, and a sum may be grouped in runs.
-/
import Idealize.ShloMosaic.PureOps.Ideal
import Idealize.ShloMosaic.PureOps.Ideal.Laws
import Idealize.ShloMosaic.Lib.ValueIdx
import Idealize.ShloMosaic.Lib.StableHlo

noncomputable section

namespace Cert.Spec

open Idealize.ShloMosaic Idealize.ShloMosaic.ValueIdx

abbrev SE : Shape := ⟨2, ![8192, 256]⟩
abbrev SM : Shape := ⟨2, ![8192, 8192]⟩
abbrev SJ : Shape := ⟨1, ![4096]⟩
abbrev S0 : Shape := ⟨0, ![]⟩

/-- The four float words the programs share, read as extended reals: 0, 10⁻¹² rounded to f32, 1/2 and 2. -/
abbrev zeroW : EReal := Ideal.ofBits .f32 0x00000000#32
abbrev epsW : EReal := Ideal.ofBits .f32 0x2B8CBCCC#32
abbrev halfW : EReal := Ideal.ofBits .f32 0x3F000000#32
abbrev twoW : EReal := Ideal.ofBits .f32 0x40000000#32

variable (E : SE.Idx → EReal) (M : SM.Idx → BitVec 1)

/-- Entry `(i, k)` of the table. -/
def ent (i : Fin 8192) (k : Fin 256) : EReal := E (ix2 i k)

/-- The squared norm of row `i`, and the inner product of rows `i` and `j`. -/
def sq (i : Fin 8192) : EReal := ∑ k : Fin 256, ent E i k * ent E i k
def gram (i j : Fin 8192) : EReal := ∑ k : Fin 256, ent E i k * ent E j k

/-- A distance from two squared norms `a`, `b` and an inner product `g`. -/
def distOf (a b g : EReal) : EReal := Ideal.sqrt (max (a + b - twoW * g) zeroW + epsW)

/-- One term of a row sum: `exp (1/2 - d)` where the mask bit is set, zero elsewhere. -/
def termOf (bit : BitVec 1) (d : EReal) : EReal := Scalar.select bit (Ideal.exp (halfW - d)) zeroW

/-- The anchor `p` and its positive `p + 4096` as rows of the table. -/
def lo (p : Fin 4096) : Fin 8192 := ⟨p.val, by omega⟩
def hi (p : Fin 4096) : Fin 8192 := ⟨p.val + 4096, by omega⟩

/-! ## The first spelling: every sum started from a zero, a row summed at once -/

def distR (i j : Fin 8192) : EReal := distOf (zeroW + sq E i) (zeroW + sq E j) (gram E i j)
def rsumR (i : Fin 8192) : EReal := zeroW + ∑ j : Fin 8192, termOf (M (ix2 i j)) (distR E i j)
def jR (p : Fin 4096) : EReal := Ideal.log (rsumR E M (lo p) + rsumR E M (hi p)) + distR E (lo p) (hi p)

/-! ## The second spelling: a row summed in eight runs of 1024 columns, the positive's distance from differences -/

/-- Column `c` of run `b`. -/
def col (b : Fin 8) (c : Fin 1024) : Fin 8192 := ⟨1024 * b.val + c.val, by omega⟩

def distK (i j : Fin 8192) : EReal := distOf (sq E i) (sq E j) (gram E i j)
/-- Run `b` of row `i`'s sum. -/
def partK (i : Fin 8192) (b : Fin 8) : EReal := ∑ c : Fin 1024, termOf (M (ix2 i (col b c))) (distK E i (col b c))
/-- The accumulator after the runs below `n`. -/
def accK (i : Fin 8192) : (n : Nat) → n ≤ 8 → EReal
  | 0, _ => zeroW
  | n + 1, h => accK i n (Nat.le_of_succ_le h) + partK E M i ⟨n, h⟩
def rsumK (i : Fin 8192) : EReal := accK E M i 8 le_rfl
def apK (p : Fin 4096) : EReal :=
  Ideal.sqrt (max (zeroW + ∑ k : Fin 256, (ent E (lo p) k - ent E (hi p) k) * (ent E (lo p) k - ent E (hi p) k)) zeroW + epsW)
def jK (p : Fin 4096) : EReal := Ideal.log (rsumK E M (lo p) + rsumK E M (hi p)) + apK E p

/-! ## The two as vectors of 4096 entries -/

def jRvec : SJ.Idx → EReal := fun q => jR E M (q 0)
def jKvec : SJ.Idx → EReal := fun q => jK E M (q 0)

end Cert.Spec

end
-- ==== Proof.Tail.lean ====
/-
  The loss as one function of the vector `j` of per-anchor values: an entry that is not a number is skipped (at the
  extended reals none is), the others contribute the square of their positive part; the sum is divided by the number
  of counted entries (at least one) and halved. Both programs end with exactly these operations, so the certificate
  carries them as one opaque function and only ever compares the vectors that go in.
-/
import proofs.«151518_j26792005992920_1_alg».proof.Proof.Spec

noncomputable section

namespace Cert.Spec

open Idealize.ShloMosaic

theorem bcast_S0_SJ : S0.BroadcastsInDim SJ (![] : Fin 0 → Fin SJ.rank) := by decide
theorem natLt_1_32 : 1 < 32 := by decide
theorem reducesTo_SJ_S0 : SJ.ReducesTo [0] S0 := by decide
theorem h_S0 : 0 < S0.numel := by decide

/-- The programs' common tail, operation by operation. -/
def lossTail {F : FTy → Type} [FloatOps F] (j : FVec F SJ .f32) : FVec F S0 .f32 :=
  let isnan : IVec SJ 1 := cmpf .une j j
  let valid : IVec SJ 1 := noti isnan
  let zeros : FVec F SJ .f32 := broadcastInDim SJ ![] bcast_S0_SJ (constant S0 .f32 0x00000000#32)
  let pos : FVec F SJ .f32 := maximumf j zeros
  let sqr : FVec F SJ .f32 := mulf pos pos
  let fill : FVec F SJ .f32 := broadcastInDim SJ ![] bcast_S0_SJ (id (constant S0 .f32 0x00000000#32))
  let r2 : FVec F SJ .f32 := select valid sqr fill
  let ones : IVec SJ 32 := extui 32 valid natLt_1_32
  let cnt : IVec S0 32 := Host.reduce IntOp.addi ones (constantI S0 32 0#32) reducesTo_SJ_S0 h_S0
  let cnt1 : IVec S0 32 := maxsi cnt (constantI S0 32 1#32)
  let cntf : FVec F S0 .f32 := sitofp .f32 cnt1
  let tot : FVec F S0 .f32 := Host.reduceAdd r2 (constant S0 .f32 0x00000000#32) reducesTo_SJ_S0 h_S0
  let mean : FVec F S0 .f32 := Host.divf tot cntf
  Host.divf mean (constant S0 .f32 0x40000000#32)

end Cert.Spec

end
-- ==== Proof.LibAxisSums.lean ====
/-
  Sums along axes of small arrays, read at explicit coordinates, at the ideal values.

  A rank-3 array `[B, n, w]` summed over its middle axis gives, at `(r, q)`, the sum over `i < n` of the entries
  `(r, i, q)`; a rank-2 array `[B, w]` summed over its last axis gives, at `r`, the sum over `l < w` of the entries
  `(r, l)`. Both are stated for the kernel's `vector.multi_reduction <add>` (whose neutral accumulator the reading
  drops) and for the host's `stablehlo.reduce` with `add` (which adds its initial value in front). The host may also
  sum a rank-3 array over its last TWO axes at once: at `r` that is the initial value plus the double sum over
  `i < n` and `l < w` of the entries `(r, i, l)`; the indices that drop to `r` are exactly the triples `(r, i, l)`,
  which the pairs `(i, l)` enumerate once each.

  The result index is any index `j` whose coordinates are the given ones (hypotheses on `.val`), so that a caller
  may pass whatever spelling of the index its goal carries.
-/
import Idealize.ShloMosaic.PureOps.Ideal.Laws
import Idealize.ShloMosaic.Lib.ValueIdx
import Idealize.ShloMosaic.Lib.IdealHost

noncomputable section

open scoped BigOperators

namespace Idealize.ShloMosaic.AxisSums

open Idealize.ShloMosaic Idealize.ShloMosaic.ValueIdx

variable {φ : FTy}

/-- The kernel's sum over the MIDDLE axis of a `[B, n, w]` array, at an index with coordinates `(r, q)`. -/
theorem middle_sum {B n w : Nat} (P : FVec Ideal ⟨3, ![B, n, w]⟩ φ) (acc : BitVec φ.bits)
    (h : Shape.Reduces ⟨3, ![B, n, w]⟩ [1] ⟨2, ![B, w]⟩) (hφ : FKind.Formats φ) (hacc : acc = FKind.add.neutral φ hφ)
    (j : (⟨2, ![B, w]⟩ : Shape).Idx) (r : Fin B) (q : Fin w) (hr : (j 0).val = r.val) (hq : (j 1).val = q.val) :
    multiReduction .add [1] ⟨2, ![B, w]⟩ P acc h hφ hacc j = ∑ i : Fin n, P (ix3 r i q) := by
  refine (Ideal.multiReduction_add_single P acc h hφ hacc j).trans ?_
  refine Finset.sum_congr rfl fun i _ => congrArg P (funext fun a => Fin.ext ?_)
  match a with
  | ⟨0, _⟩ => exact hr
  | ⟨1, _⟩ => rfl
  | ⟨2, _⟩ => exact hq

/-- The kernel's sum over the LAST axis of a `[B, w]` array, at an index with coordinate `r`. -/
theorem last_sum {B w : Nat} (P : FVec Ideal ⟨2, ![B, w]⟩ φ) (acc : BitVec φ.bits)
    (h : Shape.Reduces ⟨2, ![B, w]⟩ [1] ⟨1, ![B]⟩) (hφ : FKind.Formats φ) (hacc : acc = FKind.add.neutral φ hφ)
    (j : (⟨1, ![B]⟩ : Shape).Idx) (r : Fin B) (hr : (j 0).val = r.val) :
    multiReduction .add [1] ⟨1, ![B]⟩ P acc h hφ hacc j = ∑ l : Fin w, P (ix2 r l) := by
  refine (Ideal.multiReduction_add_single P acc h hφ hacc j).trans ?_
  refine Finset.sum_congr rfl fun l _ => congrArg P (funext fun a => Fin.ext ?_)
  match a with
  | ⟨0, _⟩ => exact hr
  | ⟨1, _⟩ => rfl

/-- The host's sum over the MIDDLE axis of a `[B, n, w]` array, at an index with coordinates `(r, q)`. -/
theorem host_middle_sum {B n w : Nat} (x : (⟨3, ![B, n, w]⟩ : Shape).Idx → EReal) (init : EReal)
    (h' : Shape.ReducesTo ⟨3, ![B, n, w]⟩ [1] ⟨2, ![B, w]⟩) (h : Shape.Reduces ⟨3, ![B, n, w]⟩ [1] ⟨2, ![B, w]⟩)
    (j : (⟨2, ![B, w]⟩ : Shape).Idx) (r : Fin B) (q : Fin w) (hr : (j 0).val = r.val) (hq : (j 1).val = q.val) :
    Ideal.hostReduceAdd h' x init j = init + ∑ i : Fin n, x (ix3 r i q) := by
  refine (Ideal.hostReduceAdd_single h' h x init j).trans (congrArg (init + ·) ?_)
  refine Finset.sum_congr rfl fun i _ => congrArg x (funext fun a => Fin.ext ?_)
  match a with
  | ⟨0, _⟩ => exact hr
  | ⟨1, _⟩ => rfl
  | ⟨2, _⟩ => exact hq

/-- The host's sum over the LAST axis of a `[B, w]` array, at an index with coordinate `r`. -/
theorem host_last_sum {B w : Nat} (x : (⟨2, ![B, w]⟩ : Shape).Idx → EReal) (init : EReal)
    (h' : Shape.ReducesTo ⟨2, ![B, w]⟩ [1] ⟨1, ![B]⟩) (h : Shape.Reduces ⟨2, ![B, w]⟩ [1] ⟨1, ![B]⟩)
    (j : (⟨1, ![B]⟩ : Shape).Idx) (r : Fin B) (hr : (j 0).val = r.val) :
    Ideal.hostReduceAdd h' x init j = init + ∑ l : Fin w, x (ix2 r l) := by
  refine (Ideal.hostReduceAdd_single h' h x init j).trans (congrArg (init + ·) ?_)
  refine Finset.sum_congr rfl fun l _ => congrArg x (funext fun a => Fin.ext ?_)
  match a with
  | ⟨0, _⟩ => exact hr
  | ⟨1, _⟩ => rfl

/-- Dropping the last two coordinates of a rank-3 index keeps the first. -/
theorem drop_last_two_val {B n w : Nat} (h' : Shape.ReducesTo ⟨3, ![B, n, w]⟩ [1, 2] ⟨1, ![B]⟩)
    (i : (⟨3, ![B, n, w]⟩ : Shape).Idx) : (h'.drop i 0).val = (i 0).val := rfl

/-- The host's sum over the LAST TWO axes of a `[B, n, w]` array, at an index with coordinate `r`: the initial value
    plus the double sum over both dropped coordinates. -/
theorem host_last_two_sum {B n w : Nat} (x : (⟨3, ![B, n, w]⟩ : Shape).Idx → EReal) (init : EReal)
    (h' : Shape.ReducesTo ⟨3, ![B, n, w]⟩ [1, 2] ⟨1, ![B]⟩)
    (j : (⟨1, ![B]⟩ : Shape).Idx) (r : Fin B) (hr : (j 0).val = r.val) :
    Ideal.hostReduceAdd h' x init j = init + ∑ i : Fin n, ∑ l : Fin w, x (ix3 r i l) := by
  unfold Ideal.hostReduceAdd
  refine congrArg (init + ·) ?_
  rw [← Finset.sum_product' (s := (Finset.univ : Finset (Fin n))) (t := (Finset.univ : Finset (Fin w)))
    (f := fun i l => x (ix3 r i l))]
  refine Finset.sum_nbij' (fun i => ((⟨(i 1).val, (i 1).isLt⟩ : Fin n), (⟨(i 2).val, (i 2).isLt⟩ : Fin w)))
    (fun p => ix3 r p.1 p.2) ?_ ?_ ?_ ?_ ?_
  · intro i _; exact Finset.mem_product.2 ⟨Finset.mem_univ _, Finset.mem_univ _⟩
  · intro p _
    refine Finset.mem_filter.2 ⟨Finset.mem_univ _, funext fun b => Fin.ext ?_⟩
    match b with
    | ⟨0, _⟩ => exact ((drop_last_two_val h' (ix3 r p.1 p.2)).trans hr.symm)
  · intro i hi
    have hj : h'.drop i = j := (Finset.mem_filter.1 hi).2
    have h0 : (i 0).val = r.val := by
      rw [← drop_last_two_val h' i, hj]; exact hr
    funext a; apply Fin.ext
    match a with
    | ⟨0, _⟩ => exact h0.symm
    | ⟨1, _⟩ => rfl
    | ⟨2, _⟩ => rfl
  · intro p _; rfl
  · intro i hi
    have hj : h'.drop i = j := (Finset.mem_filter.1 hi).2
    have h0 : (i 0).val = r.val := by
      rw [← drop_last_two_val h' i, hj]; exact hr
    refine congrArg x (funext fun a => Fin.ext ?_)
    match a with
    | ⟨0, _⟩ => exact h0
    | ⟨1, _⟩ => rfl
    | ⟨2, _⟩ => rfl

end Idealize.ShloMosaic.AxisSums

end
-- ==== Proof.KTail.lean ====
/-
  What the kernel program's host operations after its one device call compute, read as one function of two of the
  device's arrays: the column `rs` of 8192 row sums the call leaves and the table `E`.

  The operations first form, for each anchor `p` below 4096, the value

      log (rs p + rs (p + 4096)) + sqrt (max (0 + ∑ k, (E (p, k) - E (p + 4096, k))²) 0 + ε):

  the column is read as a vector of 8192 entries and cut in two halves of 4096, which are added and passed through
  the logarithm; the table is cut in its upper and lower 4096 rows, whose difference is squared and summed along a
  row from a zero. The remaining operations are the loss as a function of that vector (`lossTail`), operation for
  operation. No operation writes either argument.
-/
import proofs.«151518_j26792005992920_1_alg».proof.Proof.Gen.KernelIdeal.Launch
import proofs.«151518_j26792005992920_1_alg».proof.Proof.Tail
import proofs.«151518_j26792005992920_1_alg».proof.Proof.LibAxisSums
import Idealize.ShloMosaic.Lib.StableHlo.Run
import Idealize.ShloMosaic.Lib.Pipeline.Value
import Idealize.ShloMosaic.Lib.IdealHost

noncomputable section

namespace Cert.KernelIdeal.KTail

open Cert.KernelIdeal Cert.KernelIdeal.Gen Cert.Spec Idealize.ShloMosaic Idealize.ShloMosaic.ValueIdx

/-- The per-anchor vector from the kernel's row sums (a column) and the table. -/
def jOfRows (rs : Vec Ideal S8192x1 .f32) (E : Vec Ideal S8192x256 .f32) : SJ.Idx → EReal :=
  fun q => Ideal.log (rs (ix2 (lo (q 0)) (0 : Fin 1)) + rs (ix2 (hi (q 0)) (0 : Fin 1))) + apK E (q 0)

/-! ## The vector the loss is taken of, at one anchor -/

/-- Entry `p` of the upper half of the column read as a vector is the column's row `p`: position `p` of the vector
    is position `p · 1 + 0` of the column. -/
theorem upper_at (rs : Vec Ideal S8192x1 .f32) (p : Fin 4096)
    (hc : S8192x1.ShapeCasts S8192) (h0 : S8192.Slices ![0] S4096) :
    extractStridedSlice S4096 ![0] (fun i => shapeCast S8192 rs hc i) h0 (ix1 p) = rs (ix2 (lo p) (0 : Fin 1)) := by
  refine (extractStridedSlice_apply ![0] _ h0 (ix1 p) (ix1 (lo p)) fun a => ?_).trans
    (shapeCast_apply rs hc (ix1 (lo p)) (ix2 (lo p) (0 : Fin 1)) ?_)
  · match a with
    | ⟨0, _⟩ => show p.val = 0 + p.val; omega
  · rw [Shape.rowMajor_val_two, Shape.rowMajor_val_one]
    show (lo p).val * 1 + 0 = (lo p).val
    omega

/-- Entry `p` of the lower half is the column's row `p + 4096`. -/
theorem lower_at (rs : Vec Ideal S8192x1 .f32) (p : Fin 4096)
    (hc : S8192x1.ShapeCasts S8192) (h1 : S8192.Slices ![4096] S4096) :
    extractStridedSlice S4096 ![4096] (fun i => shapeCast S8192 rs hc i) h1 (ix1 p) = rs (ix2 (hi p) (0 : Fin 1)) := by
  refine (extractStridedSlice_apply ![4096] _ h1 (ix1 p) (ix1 (hi p)) fun a => ?_).trans
    (shapeCast_apply rs hc (ix1 (hi p)) (ix2 (hi p) (0 : Fin 1)) ?_)
  · match a with
    | ⟨0, _⟩ => show p.val + 4096 = 4096 + p.val; omega
  · rw [Shape.rowMajor_val_two, Shape.rowMajor_val_one]
    show (hi p).val * 1 + 0 = (hi p).val
    omega

/-- Entry `(p, k)` of the table's upper 4096 rows is the table's entry `(p, k)`. -/
theorem top_at (E : Vec Ideal S8192x256 .f32) (p : Fin 4096) (k : Fin 256)
    (g0 : S8192x256.Slices ![0, 0] S4096x256) :
    extractStridedSlice S4096x256 ![0, 0] E g0 (ix2 p k) = ent E (lo p) k :=
  extractStridedSlice_apply ![0, 0] E g0 (ix2 p k) (ix2 (lo p) k) fun a => by
    match a with
    | ⟨0, _⟩ => show p.val = 0 + p.val; omega
    | ⟨1, _⟩ => show k.val = 0 + k.val; omega

/-- Entry `(p, k)` of the table's lower 4096 rows is the table's entry `(p + 4096, k)`. -/
theorem bottom_at (E : Vec Ideal S8192x256 .f32) (p : Fin 4096) (k : Fin 256)
    (g1 : S8192x256.Slices ![4096, 0] S4096x256) :
    extractStridedSlice S4096x256 ![4096, 0] E g1 (ix2 p k) = ent E (hi p) k :=
  extractStridedSlice_apply ![4096, 0] E g1 (ix2 p k) (ix2 (hi p) k) fun a => by
    match a with
    | ⟨0, _⟩ => show p.val + 4096 = 4096 + p.val; omega
    | ⟨1, _⟩ => show k.val = 0 + k.val; omega

/-- The operations up to the vector the loss is taken of, read at anchor `p`: the logarithm of the two row sums'
    sum, plus the distance of rows `p` and `p + 4096` from their squared differences. -/
theorem v17_at (rs : Vec Ideal S8192x1 .f32) (E : Vec Ideal S8192x256 .f32) (p : Fin 4096)
    (hc : S8192x1.ShapeCasts S8192) (h0 : S8192.Slices ![0] S4096) (h1 : S8192.Slices ![4096] S4096)
    (g0 : S8192x256.Slices ![0, 0] S4096x256) (g1 : S8192x256.Slices ![4096, 0] S4096x256)
    (hr : S4096x256.ReducesTo [1] S4096) (hs : 0 < S_.numel)
    (hb : S_.BroadcastsInDim S4096 (![] : Fin 0 → Fin S4096.rank)) :
    addf (F := Ideal) (φ := .f32)
      (Host.log
        (addf
          (extractStridedSlice S4096 ![0] (fun i => shapeCast S8192 rs hc i) h0)
          (extractStridedSlice S4096 ![4096] (fun i => shapeCast S8192 rs hc i) h1)))
      (Host.sqrt
        (addf
          (maximumf
            (Host.reduceAdd
              (mulf
                (subf (extractStridedSlice S4096x256 ![0, 0] E g0) (extractStridedSlice S4096x256 ![4096, 0] E g1))
                (subf (extractStridedSlice S4096x256 ![0, 0] E g0) (extractStridedSlice S4096x256 ![4096, 0] E g1)))
              (constant (F := Ideal) S_ .f32 0x00000000#32) hr hs)
            (broadcastInDim S4096 ![] hb (constant (F := Ideal) S_ .f32 0x00000000#32)))
          (broadcastInDim S4096 ![] hb (constant (F := Ideal) S_ .f32 0x2B8CBCCC#32)))) (ix1 p)
      = jOfRows rs E (ix1 p) := by
  show _ = Ideal.log (rs (ix2 (lo p) (0 : Fin 1)) + rs (ix2 (hi p) (0 : Fin 1))) + apK E p
  unfold apK
  refine congrArg₂ (· + ·) (congrArg Ideal.log (congrArg₂ (· + ·) ?_ ?_))
    (congrArg Ideal.sqrt (congrArg₂ (· + ·) (congrArg₂ max ?_ ?_) ?_))
  · exact upper_at rs p hc h0
  · exact lower_at rs p hc h1
  · -- a row's sum from the initial zero, each term the squared difference of the two rows' entries
    have hR : S4096x256.Reduces [1] S4096 := by decide
    refine (hostReduceAdd_apply _ _ hr hs (ix1 p)).trans
      ((AxisSums.host_last_sum _ _ hr hR (ix1 p) p rfl).trans
        (congrArg (zeroW + ·) (Finset.sum_congr rfl fun k _ => ?_)))
    show (extractStridedSlice S4096x256 ![0, 0] E g0 (ix2 p k) - extractStridedSlice S4096x256 ![4096, 0] E g1 (ix2 p k))
        * (extractStridedSlice S4096x256 ![0, 0] E g0 (ix2 p k) - extractStridedSlice S4096x256 ![4096, 0] E g1 (ix2 p k))
      = _
    rw [top_at E p k g0, bottom_at E p k g1]
  · exact broadcastInDim_scalar_apply hb _ (ix1 p)
  · exact broadcastInDim_scalar_apply hb _ (ix1 p)

/-! ## The operations as two stretches: up to that vector, and after it -/

/-- After the first nineteen operations the vector's array holds `jOfRows` of the column and the table. -/
theorem first_eq (W : Valuation τ sig (Elt Ideal)) :
    StableHlo.after (hostOps1.take 19) W (Proc.devRef .tc main_v17)
      = jOfRows (W (Proc.devRef .tc main_v1)) (W (Proc.devRef .tc main_arg0)) := by
  simp only [hostOps1, List.take_succ_cons, List.take_zero]
  after_results
  funext (q : S4096.Idx)
  obtain ⟨p, rfl⟩ : ∃ p : Fin 4096, q = ix1 p := ⟨q 0, eq_ix1 q⟩
  exact v17_at _ _ p _ _ _ _ _ _ _ _

/-- The operations after it take the loss of whatever that array holds: they are `lossTail`'s, one for one (the
    called function's change of format is the identity, and the shape facts cited are facts about the same shapes). -/
theorem rest_eq (V : Valuation τ sig (Elt Ideal)) :
    StableHlo.after (hostOps1.drop 19 ++ hostOps1_1 ++ hostOps1_2) V (Proc.devRef .tc main_v30)
      = lossTail (F := Ideal) (V (Proc.devRef .tc main_v17)) := by
  simp only [hostOps1, hostOps1_1, hostOps1_2, List.drop_succ_cons, List.drop_zero, List.append_nil, List.cons_append,
    List.nil_append]
  after_results
  generalize V (Proc.devRef .tc main_v17) = j
  rfl

/-- The three lists of operations, in order, are the first nineteen followed by the rest. -/
theorem ops_split :
    List.flatten [(hostOps1 : List (HloOp τ sig (Elt Ideal))), hostOps1_1, hostOps1_2]
      = hostOps1.take 19 ++ (hostOps1.drop 19 ++ hostOps1_1 ++ hostOps1_2) :=
  calc List.flatten [(hostOps1 : List (HloOp τ sig (Elt Ideal))), hostOps1_1, hostOps1_2]
      = hostOps1 ++ (hostOps1_1 ++ hostOps1_2) := by
        rw [List.flatten_cons, List.flatten_cons, List.flatten_cons, List.flatten_nil, List.append_nil]
    _ = (hostOps1.take 19 ++ hostOps1.drop 19) ++ (hostOps1_1 ++ hostOps1_2) := by rw [List.take_append_drop]
    _ = hostOps1.take 19 ++ (hostOps1.drop 19 ++ hostOps1_1 ++ hostOps1_2) := by
        rw [List.append_assoc, List.append_assoc]

/-! ## The tail as one function -/

/-- The program's result after the device call: the loss of `jOfRows` of the column and the table. -/
theorem tail_v30 (W : Valuation τ sig (Elt Ideal)) :
    StableHlo.after (List.flatten [hostOps1, hostOps1_1, hostOps1_2]) W (Proc.devRef .tc main_v30)
      = lossTail (F := Ideal) (jOfRows (W (Proc.devRef .tc main_v1)) (W (Proc.devRef .tc main_arg0))) := by
  rw [ops_split, StableHlo.after_append, rest_eq, first_eq]

/-- No operation of the tail writes the table. -/
theorem tail_arg0 (W : Valuation τ sig (Elt Ideal)) :
    StableHlo.after (List.flatten [hostOps1, hostOps1_1, hostOps1_2]) W (Proc.devRef .tc main_arg0)
      = W (Proc.devRef .tc main_arg0) := by
  simp only [hostOps1, hostOps1_1, hostOps1_2, List.flatten_cons, List.flatten_nil, List.append_nil, List.cons_append,
    List.nil_append]
  after_results

/-- No operation of the tail writes the mask. -/
theorem tail_arg1 (W : Valuation τ sig (Elt Ideal)) :
    StableHlo.after (List.flatten [hostOps1, hostOps1_1, hostOps1_2]) W (Proc.devRef .tc main_arg1)
      = W (Proc.devRef .tc main_arg1) := by
  simp only [hostOps1, hostOps1_1, hostOps1_2, List.flatten_cons, List.flatten_nil, List.append_nil, List.cons_append,
    List.nil_append]
  after_results

end Cert.KernelIdeal.KTail

end
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibKeepdims.lean ====
/-
  Column layouts of a keepdims reduction, read at an index: a length-a vector recast as an [a, 1] column, and an [a, 1]
  column broadcast along the rows of an [a, b] array. (The row forms, [a] → [1, a] and [1, b] → [a, b], are the library's.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to an `[a, 1]` column reads, at `(i, u)`, the operand at `i`, whatever the unit coordinate `u`:
    both positions are the i-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.Payload.lean ====
/-
  One step of the kernel body, read at an index, at the ideal values.

  A step takes a block `x` of 1024 rows of the table (the rows of run `a`), a block `y` of 1024 rows (the rows of run
  `b`), the tile `(a, b)` of the mask widened to words, and the accumulator column `s`. For row `r` and column `c` of
  the tile it forms the two rows' squared norms as lane sums, their inner product as the entry `(r, c)` of the product
  of `x` with the transpose of `y`, the distance from these three numbers, and the term `exp (1/2 - d)` kept where the
  mask word is not zero; it sums the terms of row `r` over the 1024 columns and adds the sum to the accumulator. So at
  row `r` the step returns the accumulator plus run `b` of the masked row sum of the table's row `col a r`.

  The body is first written as a composition of named stages (the column of squared norms, the tile of inner
  products, the tile of distances, the tile of terms), which it is by unfolding; each stage is then read at an index.
-/
import proofs.«151518_j26792005992920_1_alg».proof.Proof.Gen.KernelIdeal.Skeleton
import proofs.«151518_j26792005992920_1_alg».proof.Proof.Spec
import proofs.«151518_j26792005992920_1_alg».proof.Proof.LibPlainDot
import proofs.«151518_j26792005992920_1_alg».proof.Proof.LibKeepdims
import proofs.«151518_j26792005992920_1_alg».proof.Proof.LibAxisSums
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayloadAt

open Cert.KernelIdeal Cert.KernelIdeal.Gen Cert.Spec Idealize.ShloMosaic Idealize.ShloMosaic.ValueIdx

/-! ## The zero splat -/

/-- The splat the first step stores reads the zero word at every row. -/
theorem pay2_apply (r : Fin 1024) : (k0_pay2 (F := Ideal)) (ix2 r (0 : Fin 1)) = zeroW := by
  unfold k0_pay2
  exact congrFun (shapeCast_self _ _) _

/-! ## The stages of a step -/

/-- The column of the squared norms of a block's rows: the lane sums of the squares, recast as a column. -/
def sqCol (x : FVec Ideal S1024x256 .f32) : FVec Ideal S1024x1 .f32 :=
  shapeCast S1024x1 (multiReduction .add [1] S1024 (mulf x x) 0x00000000#32 reduces_S1024x256_S1024 (.inl rfl) rfl)
    shapeCasts_S1024_S1024x1

/-- The tile of inner products of the rows of `x` with the rows of `y`: `x` times the transpose of `y`, into a zero
    accumulator. -/
def gramTile (x y : FVec Ideal S1024x256 .f32) : FVec Ideal S1024x1024 .f32 :=
  matmul dot_S1024x256_S256x1024_S1024x1024_1_0_0_1_n_n (some .fp32) x
    (transpose S256x1024 [1, 0] y transposes_S1024x256_p1_0_S256x1024) (constant S1024x1024 .f32 0x00000000#32)

/-- The tile of distances: the norms of `x`'s rows spread along the rows, those of `y`'s rows along the columns, less
    twice the inner products, cut at zero, the small word added, the root taken. -/
def distTile (x y : FVec Ideal S1024x256 .f32) : FVec Ideal S1024x1024 .f32 :=
  sqrt (addf (maximumf
    (subf
      (addf (broadcastTo S1024x1024 (sqCol x) broadcasts_S1024x1_S1024x1024)
        (broadcastTo S1024x1024 (transpose S1x1024 [1, 0] (sqCol y) transposes_S1024x1_p1_0_S1x1024)
          broadcasts_S1x1024_S1024x1024))
      (mulf (broadcast S1024x1024 (Scalar.ofBits .f32 0x40000000#32)) (gramTile x y)))
    (broadcast S1024x1024 (Scalar.ofBits .f32 0x00000000#32)))
    (broadcast S1024x1024 (Scalar.ofBits .f32 0x2B8CBCCC#32)))

/-- The tile of terms: `exp (1/2 - d)` where the mask word is not zero, the zero word elsewhere. -/
def termTile (x y : FVec Ideal S1024x256 .f32) (msk : IVec S1024x1024 32) : FVec Ideal S1024x1024 .f32 :=
  select (cmpi .ne msk (constantI S1024x1024 32 0#32))
    (exp (subf (broadcast S1024x1024 (Scalar.ofBits .f32 0x3F000000#32)) (distTile x y)))
    (broadcast S1024x1024 (Scalar.ofBits .f32 0x00000000#32))

/-- A step is the accumulator plus the column of the row sums of the tile of terms. -/
theorem pay3_eq (x y : Vec Ideal S1024x256 .f32) (msk : Vec Ideal S1024x1024 .i32) (s : Vec Ideal S1024x1 .f32) :
    k0_pay3 x y msk s
      = addf s (shapeCast S1024x1
          (multiReduction .add [1] S1024 (termTile x y msk) 0x00000000#32 reduces_S1024x1024_S1024 (.inl rfl) rfl)
          shapeCasts_S1024_S1024x1) := rfl

/-! ## Each stage at an index -/

/-- The column of squared norms at row `r`: the sum of the squares of that row's entries. -/
theorem sqCol_apply (x : FVec Ideal S1024x256 .f32) (r : Fin 1024) (u : Fin 1) :
    sqCol x (ix2 r u) = ∑ k : Fin 256, x (ix2 r k) * x (ix2 r k) :=
  (Keepdims.shapeCast_a_a1_apply _ shapeCasts_S1024_S1024x1 r u).trans
    (AxisSums.last_sum (mulf x x) 0x00000000#32 reduces_S1024x256_S1024 (.inl rfl) rfl (ix1 r) r rfl)

/-- The column of the row sums of a tile at row `r`: the sum of that row's 1024 entries. -/
theorem rowSum_apply (t : FVec Ideal S1024x1024 .f32) (r : Fin 1024) (u : Fin 1) :
    shapeCast S1024x1 (multiReduction .add [1] S1024 t 0x00000000#32 reduces_S1024x1024_S1024 (.inl rfl) rfl)
      shapeCasts_S1024_S1024x1 (ix2 r u) = ∑ c : Fin 1024, t (ix2 r c) :=
  (Keepdims.shapeCast_a_a1_apply _ shapeCasts_S1024_S1024x1 r u).trans
    (AxisSums.last_sum t 0x00000000#32 reduces_S1024x1024_S1024 (.inl rfl) rfl (ix1 r) r rfl)

/-- The printed dimension numbers are those of a plain product of a 1024 by 256 with a 256 by 1024 matrix. -/
theorem dot_eq_plain : dot_S1024x256_S256x1024_S1024x1024_1_0_0_1_n_n = DotDims.plain 1024 256 1024 := rfl

/-- The tile of inner products at `(r, c)`: row `r` of `x` against row `c` of `y`. -/
theorem gramTile_apply (x y : FVec Ideal S1024x256 .f32) (r c : Fin 1024) :
    gramTile x y (ix2 r c) = ∑ k : Fin 256, x (ix2 r k) * y (ix2 c k) :=
  (PlainDot.matmul_zero_apply 1024 256 1024 (some .fp32) x
      (transpose S256x1024 [1, 0] y transposes_S1024x256_p1_0_S256x1024) (ix2 r c)).trans
    (Finset.sum_congr rfl fun k _ =>
      congrArg (x (ix2 r k) * ·) (transpose_ix2_apply y transposes_S1024x256_p1_0_S256x1024 k c))

/-- A column spread along the rows reads, at `(r, c)`, the column's entry of row `r`. -/
theorem alongRows_apply (v : FVec Ideal S1024x1 .f32) (r c : Fin 1024) :
    broadcastTo S1024x1024 v broadcasts_S1024x1_S1024x1024 (ix2 r c) = v (ix2 r (0 : Fin 1)) :=
  Keepdims.broadcastTo_a1_ab_apply v broadcasts_S1024x1_S1024x1024 r c

/-- A column turned into a row and spread along the columns reads, at `(r, c)`, the column's entry of row `c`. -/
theorem alongCols_apply (v : FVec Ideal S1024x1 .f32) (r c : Fin 1024) :
    broadcastTo S1024x1024 (transpose S1x1024 [1, 0] v transposes_S1024x1_p1_0_S1x1024) broadcasts_S1x1024_S1024x1024
      (ix2 r c) = v (ix2 c (0 : Fin 1)) :=
  (broadcastTo_1b_ab_apply _ broadcasts_S1x1024_S1024x1024 r c).trans
    (transpose_ix2_apply v transposes_S1024x1_p1_0_S1x1024 (0 : Fin 1) c)

/-- A bit widened to a word is not the zero word exactly when the bit is set. -/
theorem ne_zero_of_widened (bit : BitVec 1) : IntOp.cmpi .ne (bit.setWidth 32) 0#32 = bit := by
  revert bit; decide

/-! ## The step at a row -/

section Step

variable (E : SE.Idx → EReal) (M : SM.Idx → BitVec 1) (a b : Fin 8)
  (x y : Vec Ideal S1024x256 .f32) (msk : Vec Ideal S1024x1024 .i32) (s : Vec Ideal S1024x1 .f32)
  (hx : ∀ (r : Fin 1024) (k : Fin 256), x (ix2 r k) = ent E (col a r) k)
  (hy : ∀ (c : Fin 1024) (k : Fin 256), y (ix2 c k) = ent E (col b c) k)
  (hm : ∀ (r c : Fin 1024), msk (ix2 r c) = (M (ix2 (col a r) (col b c))).setWidth 32)

include hx in
/-- The squared norm of row `r` of the first block is that of the table's row `col a r`. -/
theorem sqCol_x (r : Fin 1024) (u : Fin 1) : sqCol x (ix2 r u) = sq E (col a r) :=
  (sqCol_apply x r u).trans (Finset.sum_congr rfl fun k _ => by rw [hx r k])

include hx hy in
/-- The inner product at `(r, c)` is that of the table's rows `col a r` and `col b c`. -/
theorem gramTile_xy (r c : Fin 1024) : gramTile x y (ix2 r c) = gram E (col a r) (col b c) :=
  (gramTile_apply x y r c).trans (Finset.sum_congr rfl fun k _ => by rw [hx r k, hy c k])

include hx hy in
/-- The distance at `(r, c)` is that of the table's rows `col a r` and `col b c`. -/
theorem distTile_xy (r c : Fin 1024) : distTile x y (ix2 r c) = distK E (col a r) (col b c) := by
  have h1 := alongRows_apply (sqCol x) r c
  have h2 := alongCols_apply (sqCol y) r c
  have h3 := sqCol_x E a x hx r (0 : Fin 1)
  have h4 := sqCol_x E b y hy c (0 : Fin 1)
  have h5 := gramTile_xy E a b x y hx hy r c
  show Ideal.sqrt (max
      (broadcastTo S1024x1024 (sqCol x) broadcasts_S1024x1_S1024x1024 (ix2 r c)
        + broadcastTo S1024x1024 (transpose S1x1024 [1, 0] (sqCol y) transposes_S1024x1_p1_0_S1x1024)
            broadcasts_S1x1024_S1024x1024 (ix2 r c)
        - twoW * gramTile x y (ix2 r c)) zeroW + epsW) = _
  rw [h1, h2, h3, h4, h5]
  rfl

include hx hy hm in
/-- The term at `(r, c)` is the term of the table's rows `col a r` and `col b c` under the mask's bit there. -/
theorem termTile_xy (r c : Fin 1024) :
    termTile x y msk (ix2 r c) = termOf (M (ix2 (col a r) (col b c))) (distK E (col a r) (col b c)) := by
  have hb : IntOp.cmpi .ne (msk (ix2 r c)) 0#32 = M (ix2 (col a r) (col b c)) :=
    (congrArg (IntOp.cmpi .ne · 0#32) (hm r c)).trans (ne_zero_of_widened _)
  have hd := distTile_xy E a b x y hx hy r c
  show Scalar.select (IntOp.cmpi .ne (msk (ix2 r c)) 0#32) (Ideal.exp (halfW - distTile x y (ix2 r c))) zeroW = _
  rw [hb, hd]
  rfl

include hx hy hm in
/-- A step at row `r`: the accumulator there plus run `b` of the masked row sum of the table's row `col a r`. -/
theorem step_apply (r : Fin 1024) :
    k0_pay1 (k0_pay3 x y msk s) (ix2 r (0 : Fin 1)) = s (ix2 r (0 : Fin 1)) + partK E M (col a r) b := by
  have h1 : k0_pay1 (k0_pay3 x y msk s) = k0_pay3 x y msk s := shapeCast_self _ _
  rw [h1, pay3_eq]
  refine congrArg (s (ix2 r (0 : Fin 1)) + ·) ?_
  refine (rowSum_apply (termTile x y msk) r (0 : Fin 1)).trans ?_
  exact Finset.sum_congr rfl fun c _ => termTile_xy E M a b x y msk hx hy hm r c

end Step

end Cert.KernelIdeal.PayloadAt

end
-- ==== Proof.KValue.lean ====
/-
  What the kernel's result array holds after the run, read at an entry.

  The kernel walks the 8 by 8 grid of tiles row tile by row tile. At point `8 a + b` it holds rows `1024 a ..` of the
  table, rows `1024 b ..` of the table and tile `(a, b)` of the mask widened to words; one point adds run `b` of each
  of its 1024 rows' sums to the accumulator, which starts from the zero word at `b = 0`. So after point `8 a + b` the
  accumulator's entry `r` is the accumulator of row `1024 a + r` after the runs below `b + 1`; the write-back at
  `b = 7` puts the eight-run sums of rows `1024 a ..` into the result array, and the eight write-backs cover it.
-/
import proofs.«151518_j26792005992920_1_alg».proof.Proof.KBody
import proofs.«151518_j26792005992920_1_alg».proof.Proof.Spec
import proofs.«151518_j26792005992920_1_alg».proof.Proof.Payload
import Idealize.ShloMosaic.Lib.Pipeline.Value
import Idealize.ShloMosaic.Lib.StableHlo.Run

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.KernelIdeal.PayloadAt Cert.Spec

variable (m : (ℓ : Loc nD τ sig) → Buf (Elt Ideal) ℓ)

/-- The table and the mask as launched. -/
abbrev tbl (c : Dev nD) : SE.Idx → EReal := m ((c : Thread nD τ).loc main_arg0)
abbrev bits (c : Dev nD) : SM.Idx → BitVec 1 := m ((c : Thread nD τ).loc main_arg1)

/-! ## The arrays the region finds -/

/-- The one host operation before the region does not write the table. -/
theorem V_table (c : Dev nD) : (V m c main_arg0 : S8192x256.Idx → EReal) = tbl m c := by
  dsimp only [V, V1, V0, hostOps0]; after_results

/-- It widens the mask's bits to words. -/
theorem V_words (c : Dev nD) : (V m c main_v0 : S8192x8192.Idx → BitVec 32) = extui 32 (bits m c) natLt_1_32 := by
  dsimp only [V, V1, V0, hostOps0]; after_results

/-! ## The blocks of a point, read at an index -/

/-- The printed index maps over the grid: point `t` is row tile `t / 8`, column tile `t % 8`. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = t.val % 8
    ∧ win0_3.index t (0 : Fin 2) = t.val / 8 ∧ win0_3.index t (1 : Fin 2) = 0 :=
  (by decide +kernel : ∀ t : Fin grid0.N, _)

/-- The row block of point `t` holds rows `1024 (t / 8) ..` of the table. -/
theorem xblk_apply (c : Dev nD) (t : Fin cfg0.N) (a : Fin 8) (ha : t.val / 8 = a.val) (r : Fin 1024) (k : Fin 256) :
    xblk m c t (ix2 r k) = ent (tbl m c) (col a r) k := by
  obtain ⟨e0, e1, -⟩ := idx_facts t
  show V m c main_arg0 (((cfg0.win 0).blk t).view.emb (ix2 r k)) = (tbl m c) (ix2 (col a r) k)
  rw [← V_table]
  refine congrArg (V m c main_arg0) ?_
  funext ax; apply Fin.ext
  match ax with
  | ⟨0, _⟩ => show win0_0.index t (0 : Fin 2) * 1024 + 1 * r.val = 1024 * a.val + r.val; omega
  | ⟨1, _⟩ => show win0_0.index t (1 : Fin 2) * 256 + 1 * k.val = k.val; omega

/-- The column block of point `t` holds rows `1024 (t % 8) ..` of the table. -/
theorem yblk_apply (c : Dev nD) (t : Fin cfg0.N) (b : Fin 8) (hb : t.val % 8 = b.val) (r : Fin 1024) (k : Fin 256) :
    yblk m c t (ix2 r k) = ent (tbl m c) (col b r) k := by
  obtain ⟨-, -, e2, e3, -⟩ := idx_facts t
  show V m c main_arg0 (((cfg0.win 1).blk t).view.emb (ix2 r k)) = (tbl m c) (ix2 (col b r) k)
  rw [← V_table]
  refine congrArg (V m c main_arg0) ?_
  funext ax; apply Fin.ext
  match ax with
  | ⟨0, _⟩ => show win0_1.index t (0 : Fin 2) * 1024 + 1 * r.val = 1024 * b.val + r.val; omega
  | ⟨1, _⟩ => show win0_1.index t (1 : Fin 2) * 256 + 1 * k.val = k.val; omega

/-- The mask tile of point `t` holds tile `(t / 8, t % 8)` of the mask, each bit widened to a word. -/
theorem mblk_apply (c : Dev nD) (t : Fin cfg0.N) (a b : Fin 8) (ha : t.val / 8 = a.val) (hb : t.val % 8 = b.val)
    (r q : Fin 1024) :
    mblk m c t (ix2 r q) = ((bits m c) (ix2 (col a r) (col b q))).setWidth 32 := by
  obtain ⟨-, -, -, -, e4, e5, -⟩ := idx_facts t
  show V m c main_v0 (((cfg0.win 2).blk t).view.emb (ix2 r q)) = _
  rw [← extui_apply (bits m c) natLt_1_32, ← V_words]
  refine congrArg (V m c main_v0) ?_
  funext ax; apply Fin.ext
  match ax with
  | ⟨0, _⟩ => show win0_2.index t (0 : Fin 2) * 1024 + 1 * r.val = 1024 * a.val + r.val; omega
  | ⟨1, _⟩ => show win0_2.index t (1 : Fin 2) * 1024 + 1 * q.val = 1024 * b.val + q.val; omega

/-! ## The accumulator after each point -/

/-- Point `8 a + b` is a point of the grid. -/
theorem lt_N (a : Fin 8) (b : ℕ) (hb : b < 8) : 8 * a.val + b < cfg0.N := by
  have hN : cfg0.N = 64 := N_0
  have := a.isLt
  omega

/-- The accumulator depends on the point only through its number. -/
theorem accAt_congr (c : Dev nD) {n n' : ℕ} (e : n = n') (h : n < cfg0.N) (h' : n' < cfg0.N) :
    accAt m c n h = accAt m c n' h' := by
  subst e; rfl

/-- One point's update at row `r`: run `b` of row `1024 a + r`'s sum is added to the accumulator's entry. -/
theorem step_at (c : Dev nD) (t : Fin cfg0.N) (a b : Fin 8) (ha : t.val / 8 = a.val) (hb : t.val % 8 = b.val)
    (s : Vec Ideal S1024x1 .f32) (r : Fin 1024) :
    step (xblk m c t) (yblk m c t) (mblk m c t) s (ix2 r (0 : Fin 1))
      = s (ix2 r (0 : Fin 1)) + partK (tbl m c) (bits m c) (col a r) b :=
  step_apply (tbl m c) (bits m c) a b (xblk m c t) (yblk m c t) (mblk m c t) s
    (fun r k => xblk_apply m c t a ha r k) (fun q k => yblk_apply m c t b hb q k)
    (fun r q => mblk_apply m c t a b ha hb r q) r

/-- THE INVARIANT: after point `8 a + b` the accumulator's entry `r` is the accumulator of row `1024 a + r` after the
    runs below `b + 1`. -/
theorem acc_inv (c : Dev nD) (a : Fin 8) : ∀ (b : ℕ) (hb : b < 8) (r : Fin 1024),
    accAt m c (8 * a.val + b) (lt_N a b hb) (ix2 r (0 : Fin 1))
      = accK (tbl m c) (bits m c) (col a r) (b + 1) (Nat.succ_le_of_lt hb)
  | 0, hb, r => by
    have hmod : (⟨8 * a.val + 0, lt_N a 0 hb⟩ : Fin cfg0.N).val % 8 = 0 := by dsimp only; omega
    have hdiv : (⟨8 * a.val + 0, lt_N a 0 hb⟩ : Fin cfg0.N).val / 8 = a.val := by dsimp only; omega
    have hrem : (⟨8 * a.val + 0, lt_N a 0 hb⟩ : Fin cfg0.N).val % 8 = (⟨0, hb⟩ : Fin 8).val := by dsimp only; omega
    refine (congrFun (accAt_reset m c ⟨8 * a.val + 0, lt_N a 0 hb⟩ hmod) _).trans ?_
    refine (step_at m c _ a ⟨0, hb⟩ hdiv hrem _ r).trans ?_
    rw [pay2_apply]
    rfl
  | b + 1, hb, r => by
    have hmod : ¬(⟨8 * a.val + (b + 1), lt_N a (b + 1) hb⟩ : Fin cfg0.N).val % 8 = 0 := by dsimp only; omega
    have hdiv : (⟨8 * a.val + (b + 1), lt_N a (b + 1) hb⟩ : Fin cfg0.N).val / 8 = a.val := by dsimp only; omega
    have hrem : (⟨8 * a.val + (b + 1), lt_N a (b + 1) hb⟩ : Fin cfg0.N).val % 8 = (⟨b + 1, hb⟩ : Fin 8).val := by
      dsimp only; omega
    refine (congrFun (accAt_carry m c ⟨8 * a.val + (b + 1), lt_N a (b + 1) hb⟩ hmod) _).trans ?_
    refine (step_at m c _ a ⟨b + 1, hb⟩ hdiv hrem _ r).trans ?_
    rw [accAt_congr m c (show (⟨8 * a.val + (b + 1), lt_N a (b + 1) hb⟩ : Fin cfg0.N).val - 1 = 8 * a.val + b from by
      dsimp only; omega) _ (lt_N a b (Nat.lt_of_succ_lt hb)), acc_inv c a b (Nat.lt_of_succ_lt hb) r]
    rfl

/-- Row `1024 (t / 8) + r` is a row of the table. -/
theorem row_lt (t : Fin cfg0.N) (r : Fin 1024) : 1024 * (t.val / 8) + r.val < 8192 := by
  have hN : cfg0.N = 64 := N_0
  have htN : t.val < 64 := lt_of_lt_of_eq t.isLt hN
  have := r.isLt
  omega

/-- At the last column tile of a row tile the accumulator's entry `r` is the eight-run sum of row `1024 (t / 8) + r`. -/
theorem acc_at_flush (c : Dev nD) (t : Fin cfg0.N) (h7 : t.val % 8 = 7) (r : Fin 1024) :
    accAt m c t.val t.isLt (ix2 r (0 : Fin 1))
      = rsumK (m ((c : Thread nD τ).loc main_arg0)) (m ((c : Thread nD τ).loc main_arg1))
          ⟨1024 * (t.val / 8) + r.val, row_lt t r⟩ := by
  have hN : cfg0.N = 64 := N_0
  have htN : t.val < 64 := lt_of_lt_of_eq t.isLt hN
  have ha : t.val / 8 < 8 := by omega
  rw [accAt_congr m c (show t.val = 8 * (⟨t.val / 8, ha⟩ : Fin 8).val + 7 from by dsimp only; omega) t.isLt
    (lt_N ⟨t.val / 8, ha⟩ 7 (by omega)), acc_inv m c ⟨t.val / 8, ha⟩ 7 (by omega) r]
  rfl

/-! ## From the write-backs to the array -/

/-- What the result array ends holding: entry `i` is row `i`'s sum in eight runs. -/
abbrev G (c : Dev nD) : S8192x1.Idx → EReal := fun j => rsumK (tbl m c) (bits m c) (j 0)

/-- The write-back at the last column tile of row tile `a` writes block `a` of `G`. -/
theorem flushed_eq (c : Dev nD) (t : Fin cfg0.N) (hf : (cfg0.win 3).flush t = true) :
    (dats m 0 c).flushed 3 t = ((cfg0.win 3).blk t).view.read (Elt Ideal) (G m c) := by
  have h7 : t.val % 8 = 7 := (flush0_3 t).mp hf
  obtain ⟨-, -, -, -, -, -, e6, e7⟩ := idx_facts t
  show (cfg0.win 3).cut (grid0.coords t) ((dats m 0 c).after 3 t) = _
  rw [after0_3]
  funext y
  obtain ⟨r, u, rfl⟩ : ∃ (r : Fin 1024) (u : Fin 1), y = ix2 r u := ⟨y 0, y 1, eq_ix2 y⟩
  obtain rfl : u = 0 := Subsingleton.elim _ _
  show accAt m c t.val t.isLt (ix2 r (0 : Fin 1)) = G m c (((cfg0.win 3).blk t).view.emb (ix2 r (0 : Fin 1)))
  rw [acc_at_flush m c t h7 r]
  show rsumK (tbl m c) (bits m c) _ = rsumK (tbl m c) (bits m c) _
  refine congrArg (rsumK (tbl m c) (bits m c)) (Fin.ext ?_)
  show 1024 * (t.val / 8) + r.val = win0_3.index t (0 : Fin 2) * 1024 + 1 * r.val
  omega

/-- An index of the result array is in point `t`'s block iff each coordinate is in the block's range on its axis. -/
theorem mem_blk (t : Fin cfg0.N) (i : S8192x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v1).slice (win0_3.rect t)).set ↔ _
  rw [View.set_slice_whole, Rect.mem_set_unit]
  exact Iff.rfl

/-- A row of row tile `t / 8` lies in point `t`'s block. -/
theorem mem_of_tile (t : Fin cfg0.N) (i : S8192x1.Idx) (h : t.val / 8 = (i 0).val / 1024) :
    i ∈ ((cfg0.win 3).blk t).view.set := by
  have hi0 : (i 0).val < 8192 := idx2_lt0 i
  have hi1 : (i 1).val < 1 := (i 1).isLt
  obtain ⟨-, -, -, -, -, -, e6, e7⟩ := idx_facts t
  rw [mem_blk]
  intro ax
  match ax with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1 ≤ (i 1).val ∧ (i 1).val < win0_3.index t (1 : Fin 2) * 1 + 1
    omega

/-- Row `i` lies in the block written back at the last column tile of row tile `i / 1024`. -/
theorem cover (i : S8192x1.Idx) : ∃ t : Fin cfg0.N, (cfg0.win 3).flush t = true ∧ i ∈ ((cfg0.win 3).blk t).view.set := by
  have hi0 : (i 0).val < 8192 := idx2_lt0 i
  have hq : (i 0).val / 1024 < 8 := by omega
  exact ⟨⟨8 * (⟨(i 0).val / 1024, hq⟩ : Fin 8).val + 7, lt_N ⟨(i 0).val / 1024, hq⟩ 7 (by omega)⟩,
    (flush0_3 _).mpr (by dsimp only; omega), mem_of_tile _ i (by dsimp only; omega)⟩

/-- THE RESULT ARRAY after the run: row `i`'s sum in eight runs, at every row. -/
theorem final (c : Dev nD) : (dats m 0 c).arrAt 3 cfg0.N = G m c :=
  (dats m 0 c).arrAt_eq_of_cover 3 (G m c) (fun t hf => flushed_eq m c t hf) cover

/-- Entry `i` of the result array after the run is row `i`'s sum in eight runs, of the table and the mask as launched. -/
theorem out_value (c : Dev nD) (i : Fin 8192) :
    (dats (F := Ideal) m 0 c).arrAt 3 cfg0.N (ix2 i (0 : Fin 1))
      = rsumK (m ((c : Thread nD τ).loc main_arg0)) (m ((c : Thread nD τ).loc main_arg1)) i :=
  congrFun (final m c) (ix2 i (0 : Fin 1))

end Cert.KernelIdeal.KValue

end
-- ==== Proof.KRun.lean ====
/-
  The idealized kernel program's result.

  After the run the result buffer holds the programs' common tail applied to the vector `j` in its second spelling:
  each row sum as the kernel accumulated it over the eight column tiles, the anchor-positive distance from the squared
  differences. The run itself (termination, no fault, every buffer at the host operations' composed value) is the
  launch; what is added here is the reading of that value: the host operations after the region as one function of
  the result column and the table, and the column's entries as the accumulated row sums.
-/
import proofs.«151518_j26792005992920_1_alg».proof.Proof.KLaunch
import proofs.«151518_j26792005992920_1_alg».proof.Proof.KTail
import proofs.«151518_j26792005992920_1_alg».proof.Proof.KValue

set_option maxRecDepth 16384

noncomputable section

namespace Cert.KernelIdeal.KRun

open Idealize.ShloMosaic Idealize.ShloMosaic.TcCoe Idealize.ShloMosaic.ValueIdx
open Idealize.SL Idealize.SL.Sem
open Cert.KernelIdeal Cert.KernelIdeal.Gen Cert.KernelIdeal.Hand Cert.KernelIdeal.KTail Cert.Spec

variable (m : (ℓ : Loc nD τ sig) → Buf (Elt Ideal) ℓ) (ρ : Dev nD → PrngReg)
open Cert.KernelIdeal.KValue

/-- The three stretches after the region, run one after the other, are the run of their concatenation. -/
theorem V5_eq (c : Dev nD) :
    V5 m c = StableHlo.after (List.flatten [hostOps1, hostOps1_1, hostOps1_2]) (V2 m c) := by
  simp only [List.flatten_cons, List.flatten_nil, List.append_nil, StableHlo.after_append]

/-- The per-anchor vector the tail is applied to is `j` in its second spelling. -/
theorem j_eq (c : Dev nD) :
    jOfRows (outN m c) (m ((c : Thread nD τ).loc main_arg0)) = jKvec (m ((c : Thread nD τ).loc main_arg0)) (m ((c : Thread nD τ).loc main_arg1)) := by
  funext q
  unfold jOfRows jKvec jK
  rw [show outN m c (ix2 (lo (q 0)) (0 : Fin 1)) = _ from out_value m c (lo (q 0)),
    show outN m c (ix2 (hi (q 0)) (0 : Fin 1)) = _ from out_value m c (hi (q 0))]

/-- THE VALUE: every weakly fair execution of the idealized kernel program terminates with the result at the common
    tail of `j`, second spelling, and both arguments as they were. -/
theorem kernel_value : θ_run (defs (F := Ideal)) (onTc (τ := τ) (main (F := Ideal))) ⟨m, fun _ => 0, ρ⟩ (fun r => ∀ c : Dev nD,
      r.2.mem ((c.tc : Thread nD τ).loc main_v30)
        = lossTail (F := Ideal) (jKvec (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ((h c) main_arg0 rfl).trans (V5_arg0 m c), ((h c) main_arg1 rfl).trans (V5_arg1 m c)⟩) (run_main m ρ)
  refine ((h c) main_v30 rfl).trans ?_
  rw [V5_eq, tail_v30, V2_v1, V2_of_ne m c main_arg0 (by decide), V_arg0, j_eq]

end Cert.KernelIdeal.KRun

end
-- ==== Proof.RefGather.lean ====
/-
  The reference's gather of one distance per anchor, read at one anchor.

  The operand is an 8192 by 8192 array; the start indices form a 4096 by 2 array whose row q names a row and a column
  of the operand; entry q of the result is the operand's entry there. A gather reads each start index as a signed word
  and clamps it so that the one-element slice stays inside the operand: a word whose value is below 8192 is its own
  signed reading, and the clamp leaves it where it is.

  The start indices of this program are the positions 0 … 4095 beside the same positions moved up by 4096, each first
  passed through the wrap of a negative index (add 8192 when the word is negative), which leaves a non-negative word
  alone. The word facts for both columns are here; the gather itself is read for any start indices whose two words at
  row q are known.
-/
import proofs.«151518_j26792005992920_1_alg».proof.Proof.Gen.ReferenceIdeal
import Idealize.ShloMosaic.Lib.ValueIdx
import Idealize.ShloMosaic.Lib.StableHlo.Predicate

noncomputable section

namespace Cert.ReferenceIdeal.RefGather

open Cert.ReferenceIdeal Cert.ReferenceIdeal.Gen Idealize.ShloMosaic Idealize.ShloMosaic.ValueIdx
open Idealize.ShloMosaic.StableHlo.Predicate (slt_iff_toNat toInt_eq_toNat_of_lt)

/-! ## Words -/

/-- A position below 4096 as a 32-bit word has that value. -/
theorem toNat_pos (q : Fin 4096) : (BitVec.ofNat 32 q.val).toNat = q.val := by
  rw [BitVec.toNat_ofNat]; exact Nat.mod_eq_of_lt (by have := q.isLt; omega)

/-- The same position moved up by 4096. -/
theorem toNat_pos_up (q : Fin 4096) : (IntOp.addi (BitVec.ofNat 32 q.val) 4096#32).toNat = q.val + 4096 := by
  unfold IntOp.addi
  rw [BitVec.toNat_add, toNat_pos]
  have := q.isLt
  show (q.val + 4096) % 2 ^ 32 = q.val + 4096
  exact Nat.mod_eq_of_lt (by omega)

/-- A word whose value is below 2³¹ is not negative: the signed comparison with the zero word fails. -/
theorem not_neg (w : BitVec 32) (hw : w.toNat < 2 ^ 31) : IntOp.cmpi .slt w 0#32 = 0#1 :=
  eq_zero_of_ne_one fun h => by
    have := (slt_iff_toNat hw (by decide)).mp h
    simp at this

/-- The wrap of a negative index leaves a word below 2³¹ alone. -/
theorem wrap_id (w : BitVec 32) (hw : w.toNat < 2 ^ 31) :
    Scalar.select (IntOp.cmpi .slt w 0#32) (IntOp.addi w 8192#32) w = w := by
  rw [not_neg w hw, select_zero]

/-- A start index below 8192, read signed and clamped into the operand's axis of 8192, is its value. -/
theorem clamp_id (w : BitVec 32) (n : Nat) (hn : n < 8192) (hw : w.toNat = n) : min w.toInt.toNat (8192 - 1) = n := by
  rw [toInt_eq_toNat_of_lt (by omega), Int.toNat_natCast, hw]
  exact Nat.min_eq_left (by omega)

/-! ## The gather at one anchor -/

theorem zero_mem_map : (0 : Fin S8192x8192.rank) ∈ gather_S8192x8192_S4096x2_S4096_n_01_n_n_01_1_11.startIndexMap := by decide
theorem one_mem_map : (1 : Fin S8192x8192.rank) ∈ gather_S8192x8192_S4096x2_S4096_n_01_n_n_01_1_11.startIndexMap := by decide
theorem zero_mem_collapsed : (0 : Fin S8192x8192.rank) ∈ gather_S8192x8192_S4096x2_S4096_n_01_n_n_01_1_11.collapsedSliceDims := by decide
theorem one_mem_collapsed : (1 : Fin S8192x8192.rank) ∈ gather_S8192x8192_S4096x2_S4096_n_01_n_n_01_1_11.collapsedSliceDims := by decide

/-- Where result entry q finds the component of its start index for the operand's rows: row q, column 0. -/
theorem siIdx_row (q : Fin 4096) :
    gather_S8192x8192_S4096x2_S4096_n_01_n_n_01_1_11.siIdx (ix1 q) ⟨List.idxOf (0 : Fin S8192x8192.rank) gather_S8192x8192_S4096x2_S4096_n_01_n_n_01_1_11.startIndexMap, List.idxOf_lt_length_iff.2 zero_mem_map⟩
      = ix2 q (0 : Fin 2) := by
  funext k; refine Fin.ext ?_
  match k with
  | ⟨0, _⟩ => rfl
  | ⟨1, _⟩ => rfl

/-- … and for the operand's columns: row q, column 1. -/
theorem siIdx_col (q : Fin 4096) :
    gather_S8192x8192_S4096x2_S4096_n_01_n_n_01_1_11.siIdx (ix1 q) ⟨List.idxOf (1 : Fin S8192x8192.rank) gather_S8192x8192_S4096x2_S4096_n_01_n_n_01_1_11.startIndexMap, List.idxOf_lt_length_iff.2 one_mem_map⟩
      = ix2 q (1 : Fin 2) := by
  funext k; refine Fin.ext ?_
  match k with
  | ⟨0, _⟩ => rfl
  | ⟨1, _⟩ => rfl

/-- The start of the slice along the operand's rows. -/
theorem start_row (idx : IVec S4096x2 32) (q : Fin 4096) (r : Fin 8192) (hr : (idx (ix2 q (0 : Fin 2))).toNat = r.val) :
    gather_S8192x8192_S4096x2_S4096_n_01_n_n_01_1_11.start (ix1 q) idx (0 : Fin S8192x8192.rank) = r.val := by
  unfold GatherDims.start
  rw [dif_pos zero_mem_map, siIdx_row]
  exact clamp_id _ r.val r.isLt hr

/-- The start of the slice along the operand's columns. -/
theorem start_col (idx : IVec S4096x2 32) (q : Fin 4096) (c : Fin 8192) (hc : (idx (ix2 q (1 : Fin 2))).toNat = c.val) :
    gather_S8192x8192_S4096x2_S4096_n_01_n_n_01_1_11.start (ix1 q) idx (1 : Fin S8192x8192.rank) = c.val := by
  unfold GatherDims.start
  rw [dif_pos one_mem_map, siIdx_col]
  exact clamp_id _ c.val c.isLt hc

/-- Entry q of the gather is the operand's entry at the row and the column that row q of the start indices names,
    when both words are below 8192. -/
theorem gather_at {α : Type} (x : S8192x8192.Idx → α) (idx : IVec S4096x2 32) (q : Fin 4096) (r c : Fin 8192)
    (hr : (idx (ix2 q (0 : Fin 2))).toNat = r.val) (hc : (idx (ix2 q (1 : Fin 2))).toNat = c.val) :
    Host.gather gather_S8192x8192_S4096x2_S4096_n_01_n_n_01_1_11 x idx (ix1 q) = x (ix2 r c) := by
  unfold Host.gather
  refine congrArg x (funext fun a => Fin.ext ?_)
  show gather_S8192x8192_S4096x2_S4096_n_01_n_n_01_1_11.start (ix1 q) idx a + gather_S8192x8192_S4096x2_S4096_n_01_n_n_01_1_11.batchCoord (ix1 q) a + gather_S8192x8192_S4096x2_S4096_n_01_n_n_01_1_11.offCoord (ix1 q) a = (ix2 r c a).val
  rw [GatherDims.batchCoord_eq_zero _ _ _ List.not_mem_nil, Nat.add_zero]
  match a with
  | ⟨0, _⟩ =>
    show gather_S8192x8192_S4096x2_S4096_n_01_n_n_01_1_11.start (ix1 q) idx (0 : Fin S8192x8192.rank) + gather_S8192x8192_S4096x2_S4096_n_01_n_n_01_1_11.offCoord (ix1 q) (0 : Fin S8192x8192.rank) = r.val
    rw [GatherDims.offCoord_eq_zero _ _ _ (fun h => ((GatherDims.mem_sKept _ _).mp h).1 zero_mem_collapsed), Nat.add_zero]
    exact start_row idx q r hr
  | ⟨1, _⟩ =>
    show gather_S8192x8192_S4096x2_S4096_n_01_n_n_01_1_11.start (ix1 q) idx (1 : Fin S8192x8192.rank) + gather_S8192x8192_S4096x2_S4096_n_01_n_n_01_1_11.offCoord (ix1 q) (1 : Fin S8192x8192.rank) = c.val
    rw [GatherDims.offCoord_eq_zero _ _ _ (fun h => ((GatherDims.mem_sKept _ _).mp h).1 one_mem_collapsed), Nat.add_zero]
    exact start_col idx q c hc

end Cert.ReferenceIdeal.RefGather

end
-- ==== Proof.RefValue.lean ====
/-
  The reference program's result as a function of its two arguments.

  The program reaches the vector of per-anchor values in the first spelling of the mathematics: each squared norm is
  a sum started from a zero, every distance (the anchor-positive one included) goes through the Gram expansion, and a
  row of 8192 terms is summed at once. Stage by stage, read at one index:

  * the squared norm of row i is zero + ∑ k, E (i, k)²;
  * the Gram entry (i, j) is ∑ k, E (i, k) · E (j, k), the transpose read back through its index map;
  * the distance entry (i, j) is the square root of the clamped expansion plus ε;
  * the term (i, j) is exp (1/2 − distance) where the mask bit is set and zero elsewhere;
  * the row sum of row i is zero + the sum of its 8192 terms;
  * the start indices name (q, q + 4096), so the gathered entry q is the distance of the anchor and its positive;
  * entry q of the vector is log (row sum q + row sum (q + 4096)) + that distance.

  What follows the vector is the common tail, one function of the vector; it is compared over a variable vector, so
  that no full-size term is ever unfolded against another.
-/
import proofs.«151518_j26792005992920_1_alg».proof.Proof.Gen.ReferenceIdeal.Run
import proofs.«151518_j26792005992920_1_alg».proof.Proof.Gen.ReferenceIdeal.Read
import proofs.«151518_j26792005992920_1_alg».proof.Proof.Tail
import proofs.«151518_j26792005992920_1_alg».proof.Proof.RefGather
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.ReferenceIdeal.RefGather
open Idealize.ShloMosaic Idealize.ShloMosaic.ValueIdx Idealize.ShloMosaic.TcCoe Idealize.SL.Sem Idealize.ShloMosaic.StableHlo

/-! ## Squared norms -/

/-- The squared norm that is laid along the rows: a zero plus the sum of the squares of row i. -/
theorem sqnorm_rows (E : FVec Ideal S8192x256 .f32) (i : Fin 8192) :
    val_main_v1 (F := Ideal) E (ix1 i) = Spec.zeroW + Spec.sq E i := by
  rw [val_main_v1_apply]
  refine congrArg (_ + ·) (Finset.sum_congr rfl fun k _ => ?_)
  have e : idx_main_v1 (ix1 i) k = ix2 i k :=
    funext fun a => Fin.ext (by match a with | ⟨0, _⟩ => rfl | ⟨1, _⟩ => rfl)
  rw [val_main_v0_apply, e]
  rfl

/-- The squared norm that is laid along the columns: the same sum, computed a second time. -/
theorem sqnorm_cols (E : FVec Ideal S8192x256 .f32) (j : Fin 8192) :
    val_main_v4 (F := Ideal) E (ix1 j) = Spec.zeroW + Spec.sq E j := by
  rw [val_main_v4_apply]
  refine congrArg (_ + ·) (Finset.sum_congr rfl fun k _ => ?_)
  have e : idx_main_v4 (ix1 j) k = ix2 j k :=
    funext fun a => Fin.ext (by match a with | ⟨0, _⟩ => rfl | ⟨1, _⟩ => rfl)
  rw [val_main_v3_apply, e]
  rfl

/-! ## The Gram matrix -/

/-- Entry (i, j) of the product of the table with its transpose is the inner product of rows i and j. -/
theorem gram_at (E : FVec Ideal S8192x256 .f32) (i j : Fin 8192) :
    val_main_v10 (F := Ideal) E (ix2 i j) = Spec.gram E i j := by
  rw [val_main_v10_apply]
  refine Finset.sum_congr rfl fun k _ => ?_
  have el : lidx_main_v10 (ix2 i j) k = ix2 i k :=
    funext fun a => Fin.ext (by match a with | ⟨0, _⟩ => rfl | ⟨1, _⟩ => rfl)
  have er : idx_main_v9 (ridx_main_v10 (ix2 i j) k) = ix2 j k :=
    funext fun a => Fin.ext (by match a with | ⟨0, _⟩ => rfl | ⟨1, _⟩ => rfl)
  rw [val_main_v9_apply, el, er]
  rfl

/-! ## Distances -/

/-- Entry (i, j) of the distance matrix. -/
theorem dist_at (E : FVec Ideal S8192x256 .f32) (i j : Fin 8192) :
    val_main_v18 (F := Ideal) E (ix2 i j) = Spec.distR E i j := by
  have er : idx_main_v2 (idx_main_v6 (ix2 i j)) = ix1 i :=
    funext fun a => Fin.ext (by match a with | ⟨0, _⟩ => rfl)
  have ec : idx_main_v5 (idx_main_v7 (ix2 i j)) = ix1 j :=
    funext fun a => Fin.ext (by match a with | ⟨0, _⟩ => rfl)
  have h6 : val_main_v6 (F := Ideal) E (ix2 i j) = Spec.zeroW + Spec.sq E i := by
    rw [val_main_v6_apply, val_main_v2_apply, er, sqnorm_rows]
  have h7 : val_main_v7 (F := Ideal) E (ix2 i j) = Spec.zeroW + Spec.sq E j := by
    rw [val_main_v7_apply, val_main_v5_apply, ec, sqnorm_cols]
  rw [val_main_v18_apply, val_main_v17_apply, val_main_v15_apply, val_main_v13_apply, val_main_v8_apply,
    val_main_v12_apply, h6, h7, gram_at, val_main_v11_apply, val_main_v14_apply, val_main_v16_apply]
  rfl

/-! ## Terms and row sums -/

/-- Entry (i, j) of the masked exponentials. -/
theorem term_at (E : FVec Ideal S8192x256 .f32) (Mk : IVec S8192x8192 1) (i j : Fin 8192) :
    val_main_v22 (F := Ideal) E Mk (ix2 i j) = Spec.termOf (Mk (ix2 i j)) (Spec.distR E i j) := by
  rw [val_main_v22_apply, val_main_v21_apply, val_main_v20_apply, dist_at, val_main_v19_apply,
    val_main_call0_v1_apply]
  rfl

/-- The sum of row i: a zero plus its 8192 terms. -/
theorem rsum_at (E : FVec Ideal S8192x256 .f32) (Mk : IVec S8192x8192 1) (i : Fin 8192) :
    val_main_v23 (F := Ideal) E Mk (ix1 i) = Spec.rsumR E Mk i := by
  rw [val_main_v23_apply]
  refine congrArg (_ + ·) (Finset.sum_congr rfl fun k _ => ?_)
  have e : idx_main_v23 (ix1 i) k = ix2 i k :=
    funext fun a => Fin.ext (by match a with | ⟨0, _⟩ => rfl | ⟨1, _⟩ => rfl)
  rw [e, term_at]

/-! ## The start indices -/

/-- The first column's word at position q: the position itself, the wrap of a negative index doing nothing. -/
theorem word_lo (q : Fin 4096) : val_main_v31 (F := Ideal) (ix1 q) = BitVec.ofNat 32 q.val := by
  rw [val_main_v31_apply, val_main_v28_apply, val_main_v30_apply, val_main_v27_apply, val_main_v29_apply,
    val_main_v24_apply]
  exact wrap_id (BitVec.ofNat 32 q.val) (by rw [toNat_pos]; have := q.isLt; omega)

/-- The second column's word at position q: the position moved up by 4096, again left alone by the wrap. -/
theorem word_hi (q : Fin 4096) :
    val_main_v36 (F := Ideal) (ix1 q) = IntOp.addi (BitVec.ofNat 32 q.val) 4096#32 := by
  rw [val_main_v36_apply, val_main_v33_apply, val_main_v35_apply, val_main_v32_apply, val_main_v34_apply,
    val_main_v26_apply, val_main_v24_apply, val_main_v25_apply]
  exact wrap_id (IntOp.addi (BitVec.ofNat 32 q.val) 4096#32) (by rw [toNat_pos_up]; have := q.isLt; omega)

/-- Row q of the start indices names row q of the distance matrix … -/
theorem start_lo (q : Fin 4096) :
    BitVec.toNat (val_main_v39 (F := Ideal) (ix2 q (0 : Fin 2))) = (Spec.lo q).val := by
  have h := concatenate_pair_apply_left (t := S4096x2) (s₁ := S4096x1) (s₂ := S4096x1) 1
    (val_main_v37 (F := Ideal)) (val_main_v38 (F := Ideal)) concatenates_S4096x1_S4096x1_S4096x2_d1
    (ix2 q (0 : Fin 2)) rfl (ix2 q (0 : Fin 1)) (fun ax => by
      match ax with
      | ⟨0, _⟩ => rfl
      | ⟨1, _⟩ => rfl)
  have e : idx_main_v37 (ix2 q (0 : Fin 1)) = ix1 q :=
    funext fun a => Fin.ext (by match a with | ⟨0, _⟩ => rfl)
  rw [show val_main_v39 (F := Ideal) (ix2 q (0 : Fin 2)) = val_main_v37 (F := Ideal) (ix2 q (0 : Fin 1)) from h,
    val_main_v37_apply, e, word_lo]
  exact toNat_pos q

/-- … and column q + 4096. -/
theorem start_hi (q : Fin 4096) :
    BitVec.toNat (val_main_v39 (F := Ideal) (ix2 q (1 : Fin 2))) = (Spec.hi q).val := by
  have h := concatenate_pair_apply_right (t := S4096x2) (s₁ := S4096x1) (s₂ := S4096x1) 1
    (val_main_v37 (F := Ideal)) (val_main_v38 (F := Ideal)) concatenates_S4096x1_S4096x1_S4096x2_d1
    (ix2 q (1 : Fin 2)) rfl rfl (ix2 q (0 : Fin 1)) (fun ax hax => by
      match ax with
      | ⟨0, _⟩ => rfl
      | ⟨1, _⟩ => exact absurd rfl hax) rfl
  have e : idx_main_v38 (ix2 q (0 : Fin 1)) = ix1 q :=
    funext fun a => Fin.ext (by match a with | ⟨0, _⟩ => rfl)
  rw [show val_main_v39 (F := Ideal) (ix2 q (1 : Fin 2)) = val_main_v38 (F := Ideal) (ix2 q (0 : Fin 1)) from h,
    val_main_v38_apply, e, word_hi]
  exact toNat_pos_up q

/-! ## The gathered distance and the vector -/

/-- Entry q of the gather is the distance of the anchor q and its positive q + 4096. -/
theorem pos_dist_at (E : FVec Ideal S8192x256 .f32) (q : Fin 4096) :
    val_main_v40 (F := Ideal) E (ix1 q) = Spec.distR E (Spec.lo q) (Spec.hi q) := by
  unfold val_main_v40
  rw [gather_at (val_main_v18 (F := Ideal) E) (val_main_v39 (F := Ideal)) q (Spec.lo q) (Spec.hi q)
    (start_lo q) (start_hi q)]
  exact dist_at E (Spec.lo q) (Spec.hi q)

/-- The vector the reference reaches is the first spelling's, entry by entry. -/
theorem ref_j (E : FVec Ideal S8192x256 .f32) (Mk : IVec S8192x8192 1) :
    val_main_v45 (F := Ideal) E Mk = Spec.jRvec E Mk := by
  funext y
  obtain ⟨q, rfl⟩ : ∃ q : Fin 4096, y = ix1 q := ⟨y 0, eq_ix1 y⟩
  have e1 : idx_main_v41 (ix1 q) = ix1 (Spec.lo q) :=
    funext fun a => Fin.ext (by match a with | ⟨0, _⟩ => rfl)
  have e2 : idx_main_v42 (ix1 q) = ix1 (Spec.hi q) :=
    funext fun a => Fin.ext (by
      match a with
      | ⟨0, _⟩ => show 4096 + q.val = q.val + 4096; omega)
  rw [val_main_v45_apply, val_main_v44_apply, val_main_v43_apply, val_main_v41_apply, val_main_v42_apply,
    e1, e2, rsum_at, rsum_at, pos_dist_at]
  rfl

/-! ## The tail -/

/-- From the vector on, the program is the common tail. Stated for any float values and compared over a variable
    vector: the two sides are the same thirteen operations, their shape facts equal as proofs of one proposition. -/
theorem tail_eq {F : FTy → Type} [FloatOps F] (x0 : (⟨S8192x256, .f32⟩ : BufTy).Contents (Elt F))
    (x1 : (⟨S8192x8192, .i1⟩ : BufTy).Contents (Elt F)) :
    val_main_v58 (F := F) x0 x1 = Spec.lossTail (val_main_v45 (F := F) x0 x1) := by
  unfold val_main_v58 val_main_v57 val_main_v56 val_main_v55 val_main_v54 val_main_v53 val_main_v52 val_main_v51
    val_main_v50 val_main_v49 val_main_v47 val_main_v46 val_main_call1_v1 val_main_call1_v0 val_main_v48
    val_main_cst_16 val_main_cst_15 val_main_c_14 val_main_c_13 val_main_cst_12 val_main_cst_11
  generalize val_main_v45 (F := F) x0 x1 = j
  unfold Spec.lossTail
  rfl

/-! ## The run -/

/-- Every execution of the reference ends with its result at the tail of the first spelling's vector, the arguments
    unchanged. -/
theorem ref_run (m : (ℓ : Loc nD τ sig) → Buf (Elt Ideal) ℓ) (ρ : Dev nD → PrngReg) :
    θ_run (Cert.ReferenceIdeal.defs (F := Ideal)) (onTc (τ := τ) (Cert.ReferenceIdeal.main (F := Ideal)))
      ⟨m, fun _ => 0, ρ⟩ (fun r => ∀ c : Dev nD,
        r.2.mem ((c.tc : Thread nD τ).loc main_v58)
          = Spec.lossTail (F := Ideal)
              (Spec.jRvec (m ((c.tc : Thread nD τ).loc main_arg0)) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run _ _ _).mono (fun _ h c =>
      ⟨by rw [(h c).1, val_main_v58_eq, tail_eq, ref_j], (h c).2⟩)
    (Cert.ReferenceIdeal.Value.run (F := Ideal) m ρ)

end Cert.ReferenceIdeal.RefValue

end
-- ==== Proof.LibSumSplit.lean ====
import Mathlib.Algebra.BigOperators.Fin
import Mathlib.Logic.Equiv.Fin.Basic

/-!
A sum over `Fin N` with `N = a · b` is the double sum over the `a` consecutive runs of `b` indices:
index `b · t + q` is the `q`-th of run `t`.
-/

open scoped BigOperators

namespace Cert.SumSplit

/-- Index `b · t + q` of run `t` lies below `a · b`. -/
theorem lt_of_run {a b N : ℕ} (h : a * b = N) (t : Fin a) (q : Fin b) : b * t.val + q.val < N := by
  have ht := t.isLt
  have hq := q.isLt
  calc b * t.val + q.val < b * t.val + b := by omega
    _ = b * (t.val + 1) := (Nat.mul_succ b t.val).symm
    _ ≤ b * a := Nat.mul_le_mul_left _ ht
    _ = N := by rw [Nat.mul_comm, h]

/-- THE SPLIT: `∑ n < a·b, f n = ∑ t < a, ∑ q < b, f (b·t + q)`. -/
theorem sum_split {M : Type*} [AddCommMonoid M] (a b N : ℕ) (h : a * b = N) (f : Fin N → M) :
    ∑ n, f n = ∑ t : Fin a, ∑ q : Fin b, f ⟨b * t.val + q.val, lt_of_run h t q⟩ := by
  subst h
  rw [← Fintype.sum_prod_type']
  symm
  refine Fintype.sum_equiv finProdFinEquiv _ _ ?_
  rintro ⟨t, q⟩
  refine congrArg f (Fin.ext ?_)
  simp [finProdFinEquiv, Nat.add_comm]

end Cert.SumSplit
-- ==== Proof.Bridge.lean ====
/-
  The two spellings of the per-anchor value agree when every entry of the table is a finite real.

  Three facts carry it. The word of zero is the extended real zero, so a sum "started from a zero" is the sum, and
  the two distances built from a Gram expansion are the same expression. An accumulator that adds eight runs of 1024
  consecutive columns onto a zero holds the sum over all 8192 columns: addition of extended reals is commutative and
  associative, and column `1024 * b + c` is the `c`-th of run `b`. And over the reals
  `∑ (a - b)² = ∑ a² + ∑ b² - 2 ∑ a b`, which is where finiteness is used: the coercion of the reals into the
  extended reals commutes with sums, products and differences.
-/
import proofs.«151518_j26792005992920_1_alg».proof.Proof.Spec
import proofs.«151518_j26792005992920_1_alg».proof.Proof.LibSumSplit
import Mathlib.Data.EReal.Basic
import Mathlib.Data.EReal.Operations
import Mathlib.Algebra.BigOperators.Fin
import Mathlib.Algebra.BigOperators.Ring.Finset
import Mathlib.Tactic.Ring
import Mathlib.Tactic.NormNum

noncomputable section

namespace Cert.Spec

open Idealize.ShloMosaic Idealize.ShloMosaic.ValueIdx
open scoped BigOperators

/-! ## The words -/

/-- The word of zero is the extended real zero. -/
theorem zeroW_eq : zeroW = 0 := Ideal.ofBits_zero_f32

/-- The word `0x40000000` (sign 0, exponent 128, fraction 0) is the real two. -/
theorem twoW_eq : twoW = ((2 : ℝ) : EReal) := by
  simp [Ideal.ofBits, Ideal.ieee, -EReal.coe_mul]; norm_num

variable (E : SE.Idx → EReal) (M : SM.Idx → BitVec 1)

/-! ## The Gram distances: a sum started from a zero is the sum -/

theorem distK_eq_distR (i j : Fin 8192) : distK E i j = distR E i j := by
  unfold distK distR
  rw [zeroW_eq, zero_add, zero_add]

/-! ## The row sums: eight runs of 1024 columns are the whole row -/

/-- The accumulator after the runs below `n` is the zero plus those runs. -/
theorem accK_eq (i : Fin 8192) : ∀ (n : Nat) (h : n ≤ 8),
    accK E M i n h = zeroW + ∑ b : Fin n, partK E M i (Fin.castLE h b)
  | 0, _ => by simp [accK]
  | n + 1, h => by
      rw [accK, accK_eq i n (Nat.le_of_succ_le h), Fin.sum_univ_castSucc, add_assoc]
      rfl

/-- After all eight runs: the zero plus the eight runs. -/
theorem rsumK_eq_runs (i : Fin 8192) : rsumK E M i = zeroW + ∑ b : Fin 8, partK E M i b := by
  unfold rsumK
  rw [accK_eq E M i 8 le_rfl]
  rfl

/-- The eight runs of a row are the row. -/
theorem runs_eq_row (i : Fin 8192) :
    ∑ b : Fin 8, partK E M i b = ∑ j : Fin 8192, termOf (M (ix2 i j)) (distK E i j) := by
  rw [Cert.SumSplit.sum_split 8 1024 8192 (by norm_num) (fun j : Fin 8192 => termOf (M (ix2 i j)) (distK E i j))]
  rfl

theorem rsumK_eq_rsumR (i : Fin 8192) : rsumK E M i = rsumR E M i := by
  rw [rsumK_eq_runs, runs_eq_row]
  unfold rsumR
  exact congrArg (zeroW + ·) (Finset.sum_congr rfl fun j _ => by rw [distK_eq_distR])

/-! ## The positive's distance: the square of a difference expands -/

/-- The coercion of the reals into the extended reals commutes with finite sums. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Over the reals. -/
theorem real_expand {ι : Type*} (s : Finset ι) (x y : ι → ℝ) :
    ∑ k ∈ s, (x k - y k) * (x k - y k)
      = ∑ k ∈ s, x k * x k + ∑ k ∈ s, y k * y k - 2 * ∑ k ∈ s, x k * y k := by
  rw [Finset.mul_sum, ← Finset.sum_add_distrib, ← Finset.sum_sub_distrib]
  exact Finset.sum_congr rfl fun k _ => by ring

/-- The same between extended reals that are finite. -/
theorem ereal_expand {ι : Type*} (s : Finset ι) (x y : ι → ℝ) :
    (∑ k ∈ s, ((x k : EReal) - (y k : EReal)) * ((x k : EReal) - (y k : EReal)) : EReal)
      = (∑ k ∈ s, (x k : EReal) * (x k : EReal)) + (∑ k ∈ s, (y k : EReal) * (y k : EReal))
        - ((2 : ℝ) : EReal) * ∑ k ∈ s, (x k : EReal) * (y k : EReal) := by
  have h1 : (∑ k ∈ s, ((x k : EReal) - (y k : EReal)) * ((x k : EReal) - (y k : EReal)) : EReal)
      = ((∑ k ∈ s, (x k - y k) * (x k - y k) : ℝ) : EReal) := by
    rw [coe_sum]
    exact Finset.sum_congr rfl fun k _ => by rw [EReal.coe_mul, EReal.coe_sub]
  have h2 : (∑ k ∈ s, (x k : EReal) * (x k : EReal)) = ((∑ k ∈ s, x k * x k : ℝ) : EReal) := by
    rw [coe_sum]
    exact Finset.sum_congr rfl fun k _ => by rw [EReal.coe_mul]
  have h3 : (∑ k ∈ s, (y k : EReal) * (y k : EReal)) = ((∑ k ∈ s, y k * y k : ℝ) : EReal) := by
    rw [coe_sum]
    exact Finset.sum_congr rfl fun k _ => by rw [EReal.coe_mul]
  have h4 : (∑ k ∈ s, (x k : EReal) * (y k : EReal)) = ((∑ k ∈ s, x k * y k : ℝ) : EReal) := by
    rw [coe_sum]
    exact Finset.sum_congr rfl fun k _ => by rw [EReal.coe_mul]
  rw [h1, h2, h3, h4, real_expand, EReal.coe_sub, EReal.coe_add, EReal.coe_mul]

/-- The distance from the squared differences is the Gram distance of the anchor and its positive. -/
theorem apK_eq_distR (hfin : ∀ i, ∃ r : ℝ, E i = (r : EReal)) (p : Fin 4096) :
    apK E p = distR E (lo p) (hi p) := by
  choose r hr using hfin
  unfold apK distR distOf sq gram ent
  simp only [hr]
  rw [ereal_expand, twoW_eq, zeroW_eq, zero_add, zero_add, zero_add]

/-! ## The two values, and the two vectors -/

theorem jK_eq_jR (hfin : ∀ i, ∃ r : ℝ, E i = (r : EReal)) (p : Fin 4096) : jK E M p = jR E M p := by
  unfold jK jR
  rw [rsumK_eq_rsumR, rsumK_eq_rsumR, apK_eq_distR E hfin]

theorem jKvec_eq_jRvec (hfin : ∀ i, ∃ r : ℝ, E i = (r : EReal)) : jKvec E M = jRvec E M := by
  funext q
  exact jK_eq_jR E M hfin (q 0)

end Cert.Spec

end
-- ==== Proof.Finite.lean ====
/-
  The certificate's precondition, read back: the predicate takes the absolute value of every entry of the table,
  compares it strictly below the word of +∞ and conjoins the answers over both axes. Where the conjunction is 1,
  every entry has `max a (-a) < ⊤` as an extended real, so it is neither ⊤ nor ⊥: it is a real number.
-/
import proofs.«151518_j26792005992920_1_alg».proof.Pre_finite_inputs
import proofs.«151518_j26792005992920_1_alg».proof.Proof.Gen.Pre_finite_inputs
import proofs.«151518_j26792005992920_1_alg».proof.Proof.Spec
import Idealize.ShloMosaic.Lib.ReduceAll
import Idealize.ShloMosaic.Lib.ValueIdx
import Idealize.ShloMosaic.PureOps.Ideal
import Idealize.ShloMosaic.PureOps.Ideal.Laws

noncomputable section

namespace Cert.Spec

open Idealize.ShloMosaic Idealize.ShloMosaic.ValueIdx

/-- The result of a reduction over every axis has exactly one index. -/
instance subsingleton_scalarIdx : Subsingleton Cert.Pre_finite_inputs.S_.Idx :=
  ⟨fun a b => funext fun d => d.elim0⟩

/-- The word `0x7F800000` denotes +∞. -/
theorem infW_eq_top : Ideal.ofBits .f32 0x7F800000#32 = (⊤ : EReal) := by
  simp [Ideal.ofBits, Ideal.ieee]

/-- An extended real whose absolute value `max a (-a)` lies strictly below +∞ is a real number:
    at ⊤ the maximum is ⊤ itself, at ⊥ it is `-⊥ = ⊤`. -/
theorem real_of_abs_lt_top (a : EReal) (h : max a (-a) < ⊤) : ∃ r : ℝ, a = (r : EReal) := by
  induction a using EReal.rec with
  | bot => simp at h
  | coe r => exact ⟨r, rfl⟩
  | top => simp at h

/-- Under the precondition every entry of the table is a real number. -/
theorem finite_of_pre (x : FVec Ideal Cert.Pre_finite_inputs.S8192x256 .f32)
    (y : IVec Cert.Pre_finite_inputs.S8192x8192 1)
    (h : Cert.Pre_finite_inputs.fn (F := Ideal) x y = fun _ => 1#1) : ∀ i, ∃ r : ℝ, x i = (r : EReal) := by
  intro i
  have h0 := congrFun h ValueIdx.ix0
  dsimp only [Cert.Pre_finite_inputs.fn] at h0
  -- the conjunction over both axes is 1, so the comparison is 1 at the entry `i`
  have hi := Host.reduce_andi_all _ _ _ _ _ h0 i
  -- the comparison at `i` is `max (x i) (-(x i)) < ⊤`
  have hlt : max (x i) (-(x i)) < (⊤ : EReal) := by
    have hc : Ideal.cmp .olt (max (x i) (-(x i))) (Ideal.ofBits .f32 0x7F800000#32) = 1#1 := hi
    rw [infW_eq_top] at hc
    -- were the inequality false, the comparison would be the word 0
    by_contra hn
    have hf : Ideal.cmp .olt (max (x i) (-(x i))) (⊤ : EReal) = 0#1 := by
      show BitVec.ofBool (decide (max (x i) (-(x i)) < (⊤ : EReal))) = 0#1
      rw [decide_eq_false hn]; rfl
    rw [hf] at hc
    exact absurd hc (by decide)
  exact real_of_abs_lt_top (x i) hlt

/-- The same over the table's shape as the specification names it. -/
theorem finite_of_pre_SE (E : SE.Idx → EReal) (y : IVec Cert.Pre_finite_inputs.S8192x8192 1)
    (h : Cert.Pre_finite_inputs.fn (F := Ideal) E y = fun _ => 1#1) : ∀ i, ∃ r : ℝ, E i = (r : EReal) :=
  finite_of_pre E y h

/-- In coordinates: every `ent E i k` is a real number. -/
theorem ent_finite_of_pre (E : SE.Idx → EReal) (y : IVec Cert.Pre_finite_inputs.S8192x8192 1)
    (h : Cert.Pre_finite_inputs.fn (F := Ideal) E y = fun _ => 1#1) (i : Fin 8192) (k : Fin 256) :
    ∃ r : ℝ, ent E i k = (r : EReal) :=
  finite_of_pre E y h (ix2 i k)

end Cert.Spec

end
-- ==== Proof.lean ====
/-
  The certificate: a masked log-sum-exp margin loss over pairwise distances, as a tiled kernel and as plain array code.

  Both programs compute, for an embedding table of 8192 rows and a Boolean mask, the loss `lossTail j` of the
  per-anchor vector `j p = log (R p + R (p + 4096)) + d (p, p + 4096)` (Spec.lean, Tail.lean). The kernel program
  accumulates each row sum `R i` over eight column tiles inside a pipelined kernel and takes the anchor-positive
  distance from the squared differences on the host; the reference sums each row at once and reads that distance off
  the full distance matrix. Over finite reals the two vectors agree (Bridge.lean), and finiteness is the precondition
  (Finite.lean).

  The kernel is handed the table through two of its windows, so its launch deals the table's buffer to them in halves
  (KBody.lean, KLaunch.lean: the body at every grid point, and @main as host operations, the region, host operations);
  the same text at the word-level program's names gives that program's frame. The idealized kernel's value is
  KRun.lean (over KValue.lean, Payload.lean, KTail.lean), the reference's RefValue.lean (over RefGather.lean and the
  generated run of the reference).
-/
import proofs.«151518_j26792005992920_1_alg».proof.Defs
import proofs.«151518_j26792005992920_1_alg».proof.Proof.Gen.Kernel
import proofs.«151518_j26792005992920_1_alg».proof.Proof.Gen.Kernel.Skeleton
import proofs.«151518_j26792005992920_1_alg».proof.Proof.Gen.Kernel.Launch
import proofs.«151518_j26792005992920_1_alg».proof.Proof.Gen.Kernel.Points
import proofs.«151518_j26792005992920_1_alg».proof.Proof.Gen.KernelIdeal
import proofs.«151518_j26792005992920_1_alg».proof.Proof.Gen.KernelIdeal.Skeleton
import proofs.«151518_j26792005992920_1_alg».proof.Proof.Gen.KernelIdeal.Launch
import proofs.«151518_j26792005992920_1_alg».proof.Proof.Gen.KernelIdeal.Points
import proofs.«151518_j26792005992920_1_alg».proof.Proof.Gen.ReferenceIdeal
import proofs.«151518_j26792005992920_1_alg».proof.Proof.Gen.Pre_finite_inputs
import proofs.«151518_j26792005992920_1_alg».proof.Proof.KLaunchBits
import proofs.«151518_j26792005992920_1_alg».proof.Proof.KRun
import proofs.«151518_j26792005992920_1_alg».proof.Proof.RefValue
import proofs.«151518_j26792005992920_1_alg».proof.Proof.Bridge
import proofs.«151518_j26792005992920_1_alg».proof.Proof.Finite
import Idealize.ShloMosaic.Adequacy
import Idealize.ShloMosaic.Init

noncomputable section

namespace Cert.Proof

open Idealize.ShloMosaic Idealize.SL.Sem

/-- The word-level program runs and leaves its arguments as they were. -/
theorem frame_p : Cert.frame_Kernel := fun m ρ _ => Cert.Kernel.Hand.frame m ρ

/-- So does the idealized one. -/
theorem frame_pi : Cert.frame_KernelIdeal := fun m ρ _ => Cert.KernelIdeal.Hand.frame m ρ

/-- And the reference: its run with the result dropped. -/
theorem frame_ri : Cert.frame_ReferenceIdeal := fun m ρ _ =>
  (θ_run Cert.ReferenceIdeal.defs _ _).mono (fun _ h c => (h c).2) (Cert.ReferenceIdeal.RefValue.ref_run m ρ)

/-- The two idealized programs end with the common tail of the same vector: the kernel's in its second spelling, the
    reference's in the first, equal where the table's entries are finite reals, which the precondition says. -/
theorem algebraic : Cert.algebraic_KernelIdeal_ReferenceIdeal := by
  intro m ρ m' ρ' hpre hagree
  refine ⟨_, Cert.KernelIdeal.KRun.kernel_value m ρ, ?_⟩
  refine (θ_run Cert.ReferenceIdeal.defs _ _).mono (fun _ h c => ⟨(h c).1.trans ?_, (h c).2⟩)
    (Cert.ReferenceIdeal.RefValue.ref_run m' ρ')
  rw [(hagree c).1, (hagree c).2]
  exact congrArg (Cert.Spec.lossTail (F := Ideal)) (Cert.Spec.jKvec_eq_jRvec _ _ (Cert.Spec.finite_of_pre_SE _ _ (hpre c))).symm

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
